-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S4x8x25600 .f32 .bf16
  ∧ IdealRules.truncf_extf.Statement Cert.KernelIdeal.S4x25600 .f32 .bf16
  ∧ IdealRules.truncf_extf.Statement Cert.KernelIdeal.S4x8x25600 .f32 .bf16
  ∧ IdealRules.truncf_extf.Statement Cert.KernelIdeal.S4x25600 .f32 .bf16
  ∧ IdealRules.truncf_extf.Statement Cert.KernelIdeal.S4x25600 .f32 .bf16
  ∧ IdealRules.truncf_extf.Statement Cert.KernelIdeal.S4x8x25600 .f32 .bf16
  ∧ IdealRules.truncf_extf.Statement Cert.KernelIdeal.S4x25600 .f32 .bf16
  ∧ IdealRules.truncf_extf.Statement Cert.KernelIdeal.S4x8x25600 .f32 .bf16
  ∧ IdealRules.truncf_extf.Statement Cert.KernelIdeal.S4x25600 .f32 .bf16
  ∧ IdealRules.truncf_extf.Statement Cert.KernelIdeal.S4x25600 .f32 .bf16
  ∧ IdealRules.truncf_extf.Statement Cert.KernelIdeal.S4x8x25600 .f32 .bf16
  ∧ IdealRules.truncf_extf.Statement Cert.KernelIdeal.S4x25600 .f32 .bf16
  ∧ IdealRules.truncf_extf.Statement Cert.KernelIdeal.S4x8x25600 .f32 .bf16
  ∧ IdealRules.truncf_extf.Statement Cert.KernelIdeal.S4x25600 .f32 .bf16
  ∧ IdealRules.truncf_extf.Statement Cert.KernelIdeal.S4x25600 .f32 .bf16
  ∧ IdealRules.truncf_extf.Statement Cert.KernelIdeal.S4x8x25600 .f32 .bf16
  ∧ IdealRules.truncf_extf.Statement Cert.KernelIdeal.S4x25600 .f32 .bf16
  ∧ IdealRules.truncf_extf.Statement Cert.KernelIdeal.S4x8x25600 .f32 .bf16
  ∧ IdealRules.truncf_extf.Statement Cert.KernelIdeal.S4x25600 .f32 .bf16
  ∧ IdealRules.truncf_extf.Statement Cert.KernelIdeal.S4x25600 .f32 .bf16
  ∧ IdealRules.truncf_extf.Statement Cert.KernelIdeal.S4x8x25600 .f32 .bf16
  ∧ IdealRules.truncf_extf.Statement Cert.KernelIdeal.S4x25600 .f32 .bf16
  ∧ IdealRules.truncf_extf.Statement Cert.KernelIdeal.S4x8x25600 .f32 .bf16
  ∧ IdealRules.truncf_extf.Statement Cert.KernelIdeal.S4x25600 .f32 .bf16
  ∧ IdealRules.truncf_extf.Statement Cert.KernelIdeal.S4x25600 .f32 .bf16
  ∧ IdealRules.truncf_extf.Statement Cert.KernelIdeal.S4x8x25600 .f32 .bf16
  ∧ IdealRules.truncf_extf.Statement Cert.KernelIdeal.S4x25600 .f32 .bf16
  ∧ IdealRules.truncf_extf.Statement Cert.KernelIdeal.S4x8x25600 .f32 .bf16
  ∧ IdealRules.truncf_extf.Statement Cert.KernelIdeal.S4x25600 .f32 .bf16
  ∧ IdealRules.truncf_extf.Statement Cert.KernelIdeal.S4x25600 .f32 .bf16
  ∧ IdealRules.truncf_extf.Statement Cert.KernelIdeal.S4x8x25600 .f32 .bf16
  ∧ IdealRules.truncf_extf.Statement Cert.KernelIdeal.S4x25600 .f32 .bf16
  ∧ IdealRules.truncf_extf.Statement Cert.KernelIdeal.S4x8x25600 .f32 .bf16
  ∧ IdealRules.truncf_extf.Statement Cert.KernelIdeal.S4x25600 .f32 .bf16
  ∧ IdealRules.truncf_extf.Statement Cert.KernelIdeal.S4x25600 .f32 .bf16
  ∧ IdealRules.truncf_extf.Statement Cert.KernelIdeal.S4x8x25600 .f32 .bf16
  ∧ IdealRules.truncf_extf.Statement Cert.KernelIdeal.S4x25600 .f32 .bf16
  ∧ IdealRules.truncf_extf.Statement Cert.KernelIdeal.S4x8x25600 .f32 .bf16
  ∧ IdealRules.truncf_extf.Statement Cert.KernelIdeal.S4x25600 .f32 .bf16
  ∧ IdealRules.truncf_extf.Statement Cert.KernelIdeal.S4x25600 .f32 .bf16
  ∧ IdealRules.truncf_extf.Statement Cert.KernelIdeal.S4x8x25600 .f32 .bf16
  ∧ IdealRules.truncf_extf.Statement Cert.KernelIdeal.S4x25600 .f32 .bf16
  ∧ IdealRules.truncf_extf.Statement Cert.KernelIdeal.S4x8x25600 .f32 .bf16
  ∧ IdealRules.truncf_extf.Statement Cert.KernelIdeal.S4x25600 .f32 .bf16
  ∧ IdealRules.truncf_extf.Statement Cert.KernelIdeal.S4x25600 .f32 .bf16
  ∧ IdealRules.truncf_extf.Statement Cert.KernelIdeal.S4x8x25600 .f32 .bf16
  ∧ IdealRules.truncf_extf.Statement Cert.KernelIdeal.S4x25600 .f32 .bf16
  ∧ IdealRules.truncf_extf.Statement Cert.KernelIdeal.S4x8x25600 .f32 .bf16
  ∧ IdealRules.truncf_extf.Statement Cert.KernelIdeal.S4x25600 .f32 .bf16
  ∧ IdealRules.truncf_extf.Statement Cert.KernelIdeal.S4x25600 .f32 .bf16

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S4x1x160x160x160 : Shape := ⟨5, ![4, 1, 160, 160, 160]⟩
abbrev S_ : Shape := ⟨0, ![]⟩

class Facts : Prop where
  bcast_S_S4x1x160x160x160 : S_.BroadcastsInDim S4x1x160x160x160 (![] : Fin 0 → Fin S4x1x160x160x160.rank)
  reducesTo_S4x1x160x160x160_S_d0_1_2_3_4 : S4x1x160x160x160.ReducesTo [0, 1, 2, 3, 4] S_
  h_S_ : 0 < S_.numel

variable [Facts]

def fn {F : FTy → Type} [FloatOps F] (main_arg0 : IVec S4x1x160x160x160 32) (main_arg1 : IVec S4x1x160x160x160 32) : IVec S_ 1 :=
  let main_c : IVec S_ 32 := constantI S_ 32 0#32
  let main_v0 : IVec S4x1x160x160x160 32 := broadcastInDim S4x1x160x160x160 ![] bcast_S_S4x1x160x160x160 main_c
  let main_v1 : IVec S4x1x160x160x160 1 := cmpi .sge main_arg0 main_v0
  let main_c_0 : IVec S_ 32 := constantI S_ 32 10#32
  let main_v2 : IVec S4x1x160x160x160 32 := broadcastInDim S4x1x160x160x160 ![] bcast_S_S4x1x160x160x160 main_c_0
  let main_v3 : IVec S4x1x160x160x160 1 := cmpi .slt main_arg0 main_v2
  let main_v4 : IVec S4x1x160x160x160 1 := andi main_v1 main_v3
  let main_c_1 : IVec S_ 32 := constantI S_ 32 0#32
  let main_v5 : IVec S4x1x160x160x160 32 := broadcastInDim S4x1x160x160x160 ![] bcast_S_S4x1x160x160x160 main_c_1
  let main_v6 : IVec S4x1x160x160x160 1 := cmpi .sge main_arg1 main_v5
  let main_v7 : IVec S4x1x160x160x160 1 := andi main_v4 main_v6
  let main_c_2 : IVec S_ 32 := constantI S_ 32 10#32
  let main_v8 : IVec S4x1x160x160x160 32 := broadcastInDim S4x1x160x160x160 ![] bcast_S_S4x1x160x160x160 main_c_2
  let main_v9 : IVec S4x1x160x160x160 1 := cmpi .slt main_arg1 main_v8
  let main_v10 : IVec S4x1x160x160x160 1 := andi main_v7 main_v9
  let main_c_3 : IVec S_ 1 := constantI S_ 1 1#1
  let main_v11 : IVec S_ 1 := (fun x v => Host.reduce IntOp.andi x v reducesTo_S4x1x160x160x160_S_d0_1_2_3_4 h_S_) main_v10 main_c_3
  main_v11
-- ==== Kernel.lean ====
abbrev S4x1x160x160x160 : Shape := ⟨5, ![4, 1, 160, 160, 160]⟩
abbrev S4x160x25600 : Shape := ⟨3, ![4, 160, 25600]⟩
abbrev S2x4x10 : Shape := ⟨3, ![2, 4, 10]⟩
abbrev S4x8x25600 : Shape := ⟨3, ![4, 8, 25600]⟩
abbrev S1x4x10 : Shape := ⟨3, ![1, 4, 10]⟩
abbrev S4x10 : Shape := ⟨2, ![4, 10]⟩
abbrev S4x25600 : Shape := ⟨2, ![4, 25600]⟩
abbrev S4 : Shape := ⟨1, ![4]⟩
abbrev S4x1 : Shape := ⟨2, ![4, 1]⟩
abbrev S_ : Shape := ⟨0, ![]⟩
abbrev S4x9 : Shape := ⟨2, ![4, 9]⟩

abbrev nBuf : Space → Nat
  | .hbm => 50
  | .vmem => 10
  | .smem => 0
  | _ => 0

abbrev bufTy : (tb : Table) → Fin (tcTables nBuf tb) → BufTy
  | .hbm, ⟨0, _⟩ => ⟨S4x1x160x160x160, .i32⟩
  | .hbm, ⟨1, _⟩ => ⟨S4x1x160x160x160, .i32⟩
  | .hbm, ⟨2, _⟩ => ⟨S4x160x25600, .i32⟩
  | .hbm, ⟨3, _⟩ => ⟨S4x160x25600, .i32⟩
  | .hbm, ⟨4, _⟩ => ⟨S2x4x10, .f32⟩
  | .hbm, ⟨5, _⟩ => ⟨S2x4x10, .f32⟩
  | .hbm, ⟨6, _⟩ => ⟨S2x4x10, .f32⟩
  | .hbm, ⟨7, _⟩ => ⟨S_, .f32⟩
  | .hbm, ⟨8, _⟩ => ⟨S4x10, .f32⟩
  | .hbm, ⟨9, _⟩ => ⟨S_, .f32⟩
  | .hbm, ⟨10, _⟩ => ⟨S4x10, .f32⟩
  | .hbm, ⟨11, _⟩ => ⟨S_, .f32⟩
  | .hbm, ⟨12, _⟩ => ⟨S4x10, .f32⟩
  | .hbm, ⟨13, _⟩ => ⟨S4x10, .f32⟩
  | .hbm, ⟨14, _⟩ => ⟨S4x9, .f32⟩
  | .hbm, ⟨15, _⟩ => ⟨S4x9, .f32⟩
  | .hbm, ⟨16, _⟩ => ⟨S4x9, .f32⟩
  | .hbm, ⟨17, _⟩ => ⟨S4x9, .f32⟩
  | .hbm, ⟨18, _⟩ => ⟨S_, .f32⟩
  | .hbm, ⟨19, _⟩ => ⟨S4x9, .f32⟩
  | .hbm, ⟨20, _⟩ => ⟨S4x9, .i1⟩
  | .hbm, ⟨21, _⟩ => ⟨S_, .f32⟩
  | .hbm, ⟨22, _⟩ => ⟨S_, .f32⟩
  | .hbm, ⟨23, _⟩ => ⟨S4x9, .f32⟩
  | .hbm, ⟨24, _⟩ => ⟨S4x9, .f32⟩
  | .hbm, ⟨25, _⟩ => ⟨S_, .f32⟩
  | .hbm, ⟨26, _⟩ => ⟨S4x9, .f32⟩
  | .hbm, ⟨27, _⟩ => ⟨S4x9, .f32⟩
  | .hbm, ⟨28, _⟩ => ⟨S4x9, .f32⟩
  | .hbm, ⟨29, _⟩ => ⟨S_, .f32⟩
  | .hbm, ⟨30, _⟩ => ⟨S_, .f32⟩
  | .hbm, ⟨31, _⟩ => ⟨S4x9, .f32⟩
  | .hbm, ⟨32, _⟩ => ⟨S4x9, .f32⟩
  | .hbm, ⟨33, _⟩ => ⟨S_, .f32⟩
  | .hbm, ⟨34, _⟩ => ⟨S4, .f32⟩
  | .hbm, ⟨35, _⟩ => ⟨S4x1, .f32⟩
  | .hbm, ⟨36, _⟩ => ⟨S4x9, .f32⟩
  | .hbm, ⟨37, _⟩ => ⟨S4x9, .f32⟩
  | .hbm, ⟨38, _⟩ => ⟨S_, .f32⟩
  | .hbm, ⟨39, _⟩ => ⟨S4x9, .f32⟩
  | .hbm, ⟨40, _⟩ => ⟨S4x9, .f32⟩
  | .hbm, ⟨41, _⟩ => ⟨S_, .f32⟩
  | .hbm, ⟨42, _⟩ => ⟨S_, .f32⟩
  | .hbm, ⟨43, _⟩ => ⟨S4x9, .f32⟩
  | .hbm, ⟨44, _⟩ => ⟨S4x9, .f32⟩
  | .hbm, ⟨45, _⟩ => ⟨S4x9, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .local _ .vmem, ⟨0, _⟩ => ⟨S4x8x25600, .i32⟩
  | .local _ .vmem, ⟨1, _⟩ => ⟨S4x8x25600, .i32⟩
  | .local _ .vmem, ⟨2, _⟩ => ⟨S4x8x25600, .i32⟩
  | .local _ .vmem, ⟨3, _⟩ => ⟨S4x8x25600, .i32⟩
  | .local _ .vmem, ⟨4, _⟩ => ⟨S1x4x10, .f32⟩
  | .local _ .vmem, ⟨5, _⟩ => ⟨S1x4x10, .f32⟩
  | .local _ .vmem, ⟨6, _⟩ => ⟨S1x4x10, .f32⟩
  | .local _ .vmem, ⟨7, _⟩ => ⟨S1x4x10, .f32⟩
  | .local _ .vmem, ⟨8, _⟩ => ⟨S1x4x10, .f32⟩
  | .local _ .vmem, ⟨9, _⟩ => ⟨S1x4x10, .f32⟩
  | _, _ => ⟨S4x1x160x160x160, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_call1_v0 : Ref sig .tc := ⟨.hbm, 30, rfl⟩
abbrev main_call1_v1 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_call2_v0 : Ref sig .tc := ⟨.hbm, 42, rfl⟩
abbrev main_call2_v1 : Ref sig .tc := ⟨.hbm, 43, rfl⟩
abbrev main_v24 : Ref sig .tc := ⟨.hbm, 44, rfl⟩
abbrev main_v25 : Ref sig .tc := ⟨.hbm, 45, rfl⟩
abbrev main_cst_9 : Ref sig .tc := ⟨.hbm, 46, rfl⟩
abbrev main_v26 : Ref sig .tc := ⟨.hbm, 47, rfl⟩
abbrev main_cst_10 : Ref sig .tc := ⟨.hbm, 48, rfl⟩
abbrev main_v27 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 10], ![false, false]⟩

def cc0_transform_0 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x8x25600 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x8x25600 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x10 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4x10 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4x1x160x160x160_S4x160x25600 : S4x1x160x160x160.ShapeCasts S4x160x25600
  inb_S1x4x10_S1x4x10_0_0_0 : ∀ a, (![0, 0, 0] : Fin 3 → Nat) a + S1x4x10.size a ≤ S1x4x10.size a
  h_S1x4x10 : 0 < S1x4x10.numel
  shapeCasts_S1x4x10_S4x10 : S1x4x10.ShapeCasts S4x10
  shapeCasts_S4x10_S1x4x10 : S4x10.ShapeCasts S1x4x10
  inb_S4x8x25600_S4x8x25600_0_0_0 : ∀ a, (![0, 0, 0] : Fin 3 → Nat) a + S4x8x25600.size a ≤ S4x8x25600.size a
  h_S4x8x25600 : 0 < S4x8x25600.numel
  shapeCasts_S4x8x25600_S4x8x25600 : S4x8x25600.ShapeCasts S4x8x25600
  natLt_1_32 : 1 < 32
  bitsLt_bf16_f32 : FTy.bits .bf16 < FTy.bits .f32
  reduces_S4x8x25600_S4x25600 : S4x8x25600.Reduces [1] S4x25600
  reduces_S4x25600_S4 : S4x25600.Reduces [1] S4
  shapeCasts_S4_S4x1 : S4.ShapeCasts S4x1
  concatenates_S4x1_S4x1_S4x1_S4x1_S4x1_S4x1_S4x1_S4x1_S4x1_S4x1_S4x10_d1 : Shape.Concatenates [S4x1, S4x1, S4x1, S4x1, S4x1, S4x1, S4x1, S4x1, S4x1, S4x1] S4x10 1
  reducesTo_S2x4x10_S4x10_d0 : S2x4x10.ReducesTo [0] S4x10
  h_S_ : 0 < S_.numel
  slices_S4x10_S4x9_0_1 : S4x10.Slices ![0, 1] S4x9
  bcast_S_S4x9 : S_.BroadcastsInDim S4x9 (![] : Fin 0 → Fin S4x9.rank)
  reducesTo_S4x9_S4_d1 : S4x9.ReducesTo [1] S4
  bcast_S4_S4x1_0 : S4.BroadcastsInDim S4x1 (![0] : Fin 1 → Fin S4x1.rank)
  bcast_S4x1_S4x9_0_1 : S4x1.BroadcastsInDim S4x9 (![0, 1] : Fin 2 → Fin S4x9.rank)
  reducesTo_S4x9_S_d0_1 : S4x9.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x8x25600.size a ≤ S4x160x25600.size a
  hwx0_0 : ∀ i : grid0.Coords, EltTy.bits .i32 = 32 ∨ (Rect.block (s := S4x160x25600) S4x8x25600.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x8x25600.size a ≤ S4x160x25600.size a
  hwx0_1 : ∀ i : grid0.Coords, EltTy.bits .i32 = 32 ∨ (Rect.block (s := S4x160x25600) S4x8x25600.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x10.size a ≤ S2x4x10.size a
  hwx0_2 : ∀ i : grid0.Coords, EltTy.bits .f32 = 32 ∨ (Rect.block (s := S2x4x10) S1x4x10.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x10.size a ≤ S2x4x10.size a
  hwx0_3 : ∀ i : grid0.Coords, EltTy.bits .f32 = 32 ∨ (Rect.block (s := S2x4x10) S1x4x10.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4x10.size a ≤ S2x4x10.size a
  hwx0_4 : ∀ i : grid0.Coords, EltTy.bits .f32 = 32 ∨ (Rect.block (s := S2x4x10) S1x4x10.size (cc0_transform_4 i) (hinb0_4 i)).WholeWords (EltTy.packing .f32)

variable [Facts₀]

abbrev win0_0 : Pipeline.Window sig grid0 :=
  Pipeline.Window.ofSpec (Memref.whole main_v0) S4x8x25600.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x8x25600.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x4x10.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x4x10.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x4x10.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x1x160x160x160 : Shape := ⟨5, ![4, 1, 160, 160, 160]⟩
abbrev S4x4096000 : Shape := ⟨2, ![4, 4096000]⟩
abbrev S4 : Shape := ⟨1, ![4]⟩
abbrev S_ : Shape := ⟨0, ![]⟩
abbrev S4x1 : Shape := ⟨2, ![4, 1]⟩
abbrev S16384000 : Shape := ⟨1, ![16384000]⟩
abbrev S40 : Shape := ⟨1, ![40]⟩
abbrev S16384000x1 : Shape := ⟨2, ![16384000, 1]⟩
abbrev S4x10 : Shape := ⟨2, ![4, 10]⟩
abbrev S4x9 : Shape := ⟨2, ![4, 9]⟩

abbrev nBuf : Space → Nat
  | .hbm => 72
  | .vmem => 0
  | .smem => 0
  | _ => 0

abbrev bufTy : (tb : Table) → Fin (tcTables nBuf tb) → BufTy
  | .hbm, ⟨0, _⟩ => ⟨S4x1x160x160x160, .i32⟩
  | .hbm, ⟨1, _⟩ => ⟨S4x1x160x160x160, .i32⟩
  | .hbm, ⟨2, _⟩ => ⟨S4x4096000, .i32⟩
  | .hbm, ⟨3, _⟩ => ⟨S4x4096000, .i32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i32⟩
  | .hbm, ⟨8, _⟩ => ⟨S4x1, .i32⟩
  | .hbm, ⟨9, _⟩ => ⟨S4x4096000, .i32⟩
  | .hbm, ⟨10, _⟩ => ⟨S4x4096000, .i32⟩
  | .hbm, ⟨11, _⟩ => ⟨S16384000, .i32⟩
  | .hbm, ⟨12, _⟩ => ⟨S4x4096000, .i32⟩
  | .hbm, ⟨13, _⟩ => ⟨S4x4096000, .i32⟩
  | .hbm, ⟨14, _⟩ => ⟨S16384000, .i32⟩
  | .hbm, ⟨15, _⟩ => ⟨S_, .f32⟩
  | .hbm, ⟨16, _⟩ => ⟨S16384000, .f32⟩
  | .hbm, ⟨17, _⟩ => ⟨S_, .f32⟩
  | .hbm, ⟨18, _⟩ => ⟨S40, .f32⟩
  | .hbm, ⟨19, _⟩ => ⟨S16384000x1, .i32⟩
  | .hbm, ⟨20, _⟩ => ⟨S40, .f32⟩
  | .hbm, ⟨21, _⟩ => ⟨S4x10, .f32⟩
  | .hbm, ⟨22, _⟩ => ⟨S_, .f32⟩
  | .hbm, ⟨23, _⟩ => ⟨S40, .f32⟩
  | .hbm, ⟨24, _⟩ => ⟨S16384000x1, .i32⟩
  | .hbm, ⟨25, _⟩ => ⟨S40, .f32⟩
  | .hbm, ⟨26, _⟩ => ⟨S4x10, .f32⟩
  | .hbm, ⟨27, _⟩ => ⟨S4x4096000, .i1⟩
  | .hbm, ⟨28, _⟩ => ⟨S16384000, .i1⟩
  | .hbm, ⟨29, _⟩ => ⟨S16384000, .f32⟩
  | .hbm, ⟨30, _⟩ => ⟨S_, .f32⟩
  | .hbm, ⟨31, _⟩ => ⟨S40, .f32⟩
  | .hbm, ⟨32, _⟩ => ⟨S16384000x1, .i32⟩
  | .hbm, ⟨33, _⟩ => ⟨S40, .f32⟩
  | .hbm, ⟨34, _⟩ => ⟨S4x10, .f32⟩
  | .hbm, ⟨35, _⟩ => ⟨S4x10, .f32⟩
  | .hbm, ⟨36, _⟩ => ⟨S4x9, .f32⟩
  | .hbm, ⟨37, _⟩ => ⟨S4x9, .f32⟩
  | .hbm, ⟨38, _⟩ => ⟨S4x9, .f32⟩
  | .hbm, ⟨39, _⟩ => ⟨S4x9, .f32⟩
  | .hbm, ⟨40, _⟩ => ⟨S_, .f32⟩
  | .hbm, ⟨41, _⟩ => ⟨S4x9, .f32⟩
  | .hbm, ⟨42, _⟩ => ⟨S4x9, .i1⟩
  | .hbm, ⟨43, _⟩ => ⟨S_, .f32⟩
  | .hbm, ⟨44, _⟩ => ⟨S_, .f32⟩
  | .hbm, ⟨45, _⟩ => ⟨S4x9, .f32⟩
  | .hbm, ⟨46, _⟩ => ⟨S4x9, .f32⟩
  | .hbm, ⟨47, _⟩ => ⟨S_, .f32⟩
  | .hbm, ⟨48, _⟩ => ⟨S4x9, .f32⟩
  | .hbm, ⟨49, _⟩ => ⟨S4x9, .f32⟩
  | .hbm, ⟨50, _⟩ => ⟨S4x9, .f32⟩
  | .hbm, ⟨51, _⟩ => ⟨S_, .f32⟩
  | .hbm, ⟨52, _⟩ => ⟨S_, .f32⟩
  | .hbm, ⟨53, _⟩ => ⟨S4x9, .f32⟩
  | .hbm, ⟨54, _⟩ => ⟨S4x9, .f32⟩
  | .hbm, ⟨55, _⟩ => ⟨S_, .f32⟩
  | .hbm, ⟨56, _⟩ => ⟨S4, .f32⟩
  | .hbm, ⟨57, _⟩ => ⟨S4x1, .f32⟩
  | .hbm, ⟨58, _⟩ => ⟨S4x9, .f32⟩
  | .hbm, ⟨59, _⟩ => ⟨S4x9, .f32⟩
  | .hbm, ⟨60, _⟩ => ⟨S_, .f32⟩
  | .hbm, ⟨61, _⟩ => ⟨S4x9, .f32⟩
  | .hbm, ⟨62, _⟩ => ⟨S4x9, .f32⟩
  | .hbm, ⟨63, _⟩ => ⟨S_, .f32⟩
  | .hbm, ⟨64, _⟩ => ⟨S_, .f32⟩
  | .hbm, ⟨65, _⟩ => ⟨S4x9, .f32⟩
  | .hbm, ⟨66, _⟩ => ⟨S4x9, .f32⟩
  | .hbm, ⟨67, _⟩ => ⟨S4x9, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | _, _ => ⟨S4x1x160x160x160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_call0_v0 : Ref sig .tc := ⟨.hbm, 44, rfl⟩
abbrev main_call0_v1 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_call1_v0 : Ref sig .tc := ⟨.hbm, 52, rfl⟩
abbrev main_call1_v1 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_call2_v0 : Ref sig .tc := ⟨.hbm, 64, rfl⟩
abbrev main_call2_v1 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩

abbrev nD : Nat := 1
abbrev τ : Topo := Topo.v7x

variable {F : FTy → Type} [FloatOps F]

class Facts₀ : Prop where
  shapeCasts_S4x1x160x160x160_S4x4096000 : S4x1x160x160x160.ShapeCasts S4x4096000
  bcast_S_S4 : S_.BroadcastsInDim S4 (![] : Fin 0 → Fin S4.rank)
  bcast_S4_S4x1_0 : S4.BroadcastsInDim S4x1 (![0] : Fin 1 → Fin S4x1.rank)
  bcast_S4x1_S4x4096000_0_1 : S4x1.BroadcastsInDim S4x4096000 (![0, 1] : Fin 2 → Fin S4x4096000.rank)
  shapeCasts_S4x4096000_S16384000 : S4x4096000.ShapeCasts S16384000
  bcast_S_S16384000 : S_.BroadcastsInDim S16384000 (![] : Fin 0 → Fin S16384000.rank)
  bcast_S_S40 : S_.BroadcastsInDim S40 (![] : Fin 0 → Fin S40.rank)
  bcast_S16384000_S16384000x1_0 : S16384000.BroadcastsInDim S16384000x1 (![0] : Fin 1 → Fin S16384000x1.rank)
  shapeCasts_S40_S4x10 : S40.ShapeCasts S4x10
  slices_S4x10_S4x9_0_1 : S4x10.Slices ![0, 1] S4x9
  bcast_S_S4x9 : S_.BroadcastsInDim S4x9 (![] : Fin 0 → Fin S4x9.rank)
  reducesTo_S4x9_S4_d1 : S4x9.ReducesTo [1] S4
  h_S_ : 0 < S_.numel
  bcast_S4x1_S4x9_0_1 : S4x1.BroadcastsInDim S4x9 (![0, 1] : Fin 2 → Fin S4x9.rank)
  reducesTo_S4x9_S_d0_1 : S4x9.ReducesTo [0, 1] S_
  scatter_S40_S16384000x1_S16384000_n_0_0_1_wf : ScatterDims.WF S40 S16384000x1 S16384000 [] [0] [0] 1

variable [Facts₀]

def scatter_S40_S16384000x1_S16384000_n_0_0_1 : ScatterDims S40 S16384000x1 S16384000 where
  updateWindowDims := []
  insertedWindowDims := [0]
  scatterDimsToOperandDims := [0]
  indexVectorDim := 1
  wf := scatter_S40_S16384000x1_S16384000_n_0_0_1_wf

class Facts : Prop extends Facts₀ where

variable [Facts]
-- ==== Proof.Spec.lean ====
/-
  The three label histograms of a pair of label volumes, as functions of the volumes.

  A volume x has shape [4, 1, 160, 160, 160]; voxel number q (row-major, q < 4 · 4096000) is the index vox q,
  and lies in batch q / 4096000. For a batch b and a class c:

    histP x b c   = the number of voxels of batch b whose label in x is c,
    histI x y b c = the number of voxels of batch b whose label is c in x and in y,

  each a sum of 0s and 1s over all voxels, in the extended reals. HP x and HI x y are these as [4, 10] tables.
-/
import Idealize.ShloMosaic.PureOps.Ideal
import Idealize.ShloMosaic.Lib.ValueIdx

noncomputable section

open scoped BigOperators

namespace Cert.Hist

open Idealize.ShloMosaic

/-- The shape of a label volume, and of a histogram table. -/
abbrev Vol : Shape := ⟨5, ![4, 1, 160, 160, 160]⟩
abbrev Tab : Shape := ⟨2, ![4, 10]⟩

/-- Voxel number q, row-major: batch q / 4096000, depth q / 25600 mod 160, row q / 160 mod 160, column q mod 160. -/
def vox (q : ℕ) : Vol.Idx := fun a => match a with
  | ⟨0, _⟩ => ⟨q / 4096000 % 4, by show q / 4096000 % 4 < 4; omega⟩
  | ⟨1, _⟩ => ⟨0, Nat.one_pos⟩
  | ⟨2, _⟩ => ⟨q / 25600 % 160, by show q / 25600 % 160 < 160; omega⟩
  | ⟨3, _⟩ => ⟨q / 160 % 160, by show q / 160 % 160 < 160; omega⟩
  | ⟨4, _⟩ => ⟨q % 160, by show q % 160 < 160; omega⟩

/-- 1 where the label word a is the class c, 0 elsewhere. -/
def isC (a : BitVec 32) (c : ℕ) : EReal := if a = BitVec.ofNat 32 c then 1 else 0

/-- The voxels of batch b labelled c in x, counted. -/
def histP (x : Vol.Idx → BitVec 32) (b c : ℕ) : EReal :=
  ∑ q : Fin 16384000, if q.val / 4096000 = b then isC (x (vox q.val)) c else 0

/-- The voxels of batch b labelled c in both x and y, counted. -/
def histI (x y : Vol.Idx → BitVec 32) (b c : ℕ) : EReal :=
  ∑ q : Fin 16384000, if q.val / 4096000 = b then isC (x (vox q.val)) c * isC (y (vox q.val)) c else 0

/-- The histograms as [4, 10] tables. -/
def HP (x : Vol.Idx → BitVec 32) : Tab.Idx → EReal := fun i => histP x (i 0).val (i 1).val
def HI (x y : Vol.Idx → BitVec 32) : Tab.Idx → EReal := fun i => histI x y (i 0).val (i 1).val

end Cert.Hist

end
-- ==== Proof.Count.lean ====
/-
  Counting voxels of a label volume.

  A volume of shape [4, 1, 160, 160, 160] has 4 · 4096000 voxels; voxel number q (row-major) lies in batch
  q / 4096000. Two ways of summing a function f of the voxel number over one batch b are compared:

  • tile by tile: the batch's 160 depth slices of 25600 voxels each are cut into 2 halves of 10 tiles of 8
    slices, and a tile is summed lane by lane (l < 25600), each lane over its 8 slices (k < 8);
  • as one sum over all 4 · 4096000 voxels, keeping only those of batch b.

  Both are the sum of f over the voxels b · 4096000 + u, u < 4096000 (count_tiles, count_batch). The second
  part is about the key label + 10 · batch that a fused histogram sorts by: for labels in [0, 10) and batches
  in [0, 4) the key 10 · b + c is met exactly by label c in batch b (key_iff).
-/
import Idealize.ShloMosaic.PureOps.Ideal
import Idealize.ShloMosaic.Lib.ValueIdx

noncomputable section

open scoped BigOperators

namespace Cert.Hist

open Idealize.ShloMosaic

/-- A sum over the range m · n is the sum over quotients a < m and remainders r < n of the term at a · n + r. -/
theorem sum_fin_mul {M : Type*} [AddCommMonoid M] (m n : ℕ) (g : ℕ → M) :
    ∑ x : Fin (m * n), g x.val = ∑ a : Fin m, ∑ r : Fin n, g (a.val * n + r.val) := by
  rw [← Equiv.sum_comp finProdFinEquiv, Fintype.sum_prod_type]
  refine Finset.sum_congr rfl fun a _ => Finset.sum_congr rfl fun r _ => ?_
  show g (r.val + n * a.val) = _
  rw [Nat.add_comm, Nat.mul_comm]

/-- The same for a range whose length is given as a product. -/
theorem sum_fin_mul' {M : Type*} [AddCommMonoid M] (N m n : ℕ) (hN : N = m * n) (g : ℕ → M) :
    ∑ x : Fin N, g x.val = ∑ a : Fin m, ∑ r : Fin n, g (a.val * n + r.val) := by
  subst hN; exact sum_fin_mul m n g

/-- One batch's 4096000 voxels, tile by tile: half p, tile t of the half, lane l, slice k of the tile. -/
theorem count_tiles {M : Type*} [AddCommMonoid M] (h : ℕ → M) :
    ∑ p : Fin 2, ∑ t : Fin 10, ∑ l : Fin 25600, ∑ k : Fin 8, h (((p.val * 10 + t.val) * 8 + k.val) * 25600 + l.val)
      = ∑ u : Fin 4096000, h u.val := by
  have e1 := sum_fin_mul' 4096000 2 2048000 (by norm_num) h
  have e2 : ∀ p : ℕ, ∑ r : Fin 2048000, h (p * 2048000 + r.val)
      = ∑ t : Fin 10, ∑ r : Fin 204800, h (p * 2048000 + (t.val * 204800 + r.val)) :=
    fun p => sum_fin_mul' 2048000 10 204800 (by norm_num) fun r => h (p * 2048000 + r)
  have e3 : ∀ p t : ℕ, ∑ r : Fin 204800, h (p * 2048000 + (t * 204800 + r.val))
      = ∑ k : Fin 8, ∑ l : Fin 25600, h (p * 2048000 + (t * 204800 + (k.val * 25600 + l.val))) :=
    fun p t => sum_fin_mul' 204800 8 25600 (by norm_num) fun r => h (p * 2048000 + (t * 204800 + r))
  refine Eq.trans ?_ e1.symm
  refine Finset.sum_congr rfl fun p _ => ?_
  rw [e2]
  refine Finset.sum_congr rfl fun t _ => ?_
  rw [e3, Finset.sum_comm]
  refine Finset.sum_congr rfl fun k _ => Finset.sum_congr rfl fun l _ => ?_
  refine congrArg h ?_
  omega

/-- The voxels of batch b among all 4 · 4096000: the sum that keeps only them is the sum over the batch. -/
theorem count_batch {M : Type*} [AddCommMonoid M] (f : ℕ → M) (b : Fin 4) :
    ∑ q : Fin 16384000, (if q.val / 4096000 = b.val then f q.val else 0)
      = ∑ u : Fin 4096000, f (b.val * 4096000 + u.val) := by
  have e := sum_fin_mul' 16384000 4 4096000 (by norm_num) fun q => if q / 4096000 = b.val then f q else 0
  refine e.trans ?_
  have inner : ∀ a : Fin 4, ∑ r : Fin 4096000, (if (a.val * 4096000 + r.val) / 4096000 = b.val then f (a.val * 4096000 + r.val) else 0)
      = if a = b then ∑ u : Fin 4096000, f (b.val * 4096000 + u.val) else 0 := by
    intro a
    by_cases hab : a = b
    · subst hab
      rw [if_pos rfl]
      refine Finset.sum_congr rfl fun r _ => ?_
      rw [if_pos (by have := r.isLt; omega)]
    · rw [if_neg hab]
      refine Finset.sum_eq_zero fun r _ => ?_
      rw [if_neg (by have := r.isLt; have : a.val ≠ b.val := fun h => hab (Fin.ext h); omega)]
  simp only [inner]
  rw [Finset.sum_ite_eq' Finset.univ b]
  simp

/-- Tile by tile and voxel by voxel, one batch's sum is the same. -/
theorem count_eq {M : Type*} [AddCommMonoid M] (f : ℕ → M) (b : Fin 4) :
    ∑ p : Fin 2, ∑ t : Fin 10, ∑ l : Fin 25600, ∑ k : Fin 8,
        f (b.val * 4096000 + (((p.val * 10 + t.val) * 8 + k.val) * 25600 + l.val))
      = ∑ q : Fin 16384000, (if q.val / 4096000 = b.val then f q.val else 0) := by
  rw [count_batch f b]
  exact count_tiles fun u => f (b.val * 4096000 + u)

/-- THE KEY. A label a in [0, 10) of batch b' < 4 has key a + 10 · b' (32-bit words, no wrap), and that key is
    10 · b + c, for a batch b < 4 and a class c < 10, exactly when b' = b and a = c. -/
theorem key_iff (a : BitVec 32) (ha : a.toNat < 10) (b' b c : ℕ) (hb' : b' < 4) (hb : b < 4) (hc : c < 10) :
    (IntOp.addi a (IntOp.muli (BitVec.ofNat 32 b') 10#32)).toInt = ((b * 10 + c : ℕ) : ℤ)
      ↔ b' = b ∧ a = BitVec.ofNat 32 c := by
  have hm : (IntOp.muli (BitVec.ofNat 32 b') 10#32).toNat = b' * 10 := by
    show (BitVec.ofNat 32 b' * 10#32).toNat = _
    rw [BitVec.toNat_mul, BitVec.toNat_ofNat]
    simp only [BitVec.toNat_ofNat]
    omega
  have hk : (IntOp.addi a (IntOp.muli (BitVec.ofNat 32 b') 10#32)).toNat = a.toNat + b' * 10 := by
    show (a + IntOp.muli (BitVec.ofNat 32 b') 10#32).toNat = _
    rw [BitVec.toNat_add, hm]
    omega
  have hi : (IntOp.addi a (IntOp.muli (BitVec.ofNat 32 b') 10#32)).toInt = ((a.toNat + b' * 10 : ℕ) : ℤ) := by
    rw [BitVec.toInt_eq_toNat_cond, hk]
    rw [if_pos (by omega)]
  rw [hi]
  constructor
  · intro h
    have h' : a.toNat + b' * 10 = b * 10 + c := by exact_mod_cast h
    refine ⟨by omega, ?_⟩
    apply BitVec.eq_of_toNat_eq
    rw [BitVec.toNat_ofNat]
    omega
  · rintro ⟨rfl, rfl⟩
    rw [BitVec.toNat_ofNat]
    have : c % 2 ^ 32 = c := Nat.mod_eq_of_lt (by omega)
    rw [this]
    push_cast
    omega

end Cert.Hist

end
-- ==== Proof.LibRows.lean ====
/-
  Rows of a matrix taken at an index vector, and rows added into a matrix at an index vector, read at one index.

  Two host operations over an operand of shape [n, c], a column of integer words of shape [e, 1], and an
  array of shape [e, c]:

  • the gather with offset axis 1, collapsed slice axis 0, start index map [0], index vector axis 1 and slice
    sizes [1, c] — what h[src] of a matrix h at an index vector src lowers to. Its element (p, q) is the
    operand's element (k, q), where k is the word idx[p, 0] read as a signed integer and clamped into
    [0, n − 1] (rowGather_apply);

  • the scatter with update window axis 1, inserted window axis 0, scatter-dims-to-operand-dims [0] and index
    vector axis 1, whose body adds — what segment_sum(u, dst, num_segments = n) lowers to (over zeros). The
    update (p, q) lands on the operand's element (r, q) exactly when the word idx[p, 0], read signed and NOT
    clamped, is r (rowScatter_resultIdx); so over the extended reals the result's element (r, q) is the
    operand's plus the sum, over all p, of upd[p, q] where idx[p, 0] = r and of 0 elsewhere
    (rowScatterAdd_apply). An index outside [0, n) names no row: its update is dropped.

  The same scatter for a rank-1 operand [n] and updates [e] (no window axis): segment_sum of a vector
  (rowScatter1_resultIdx, rowScatterAdd1_apply).

  Everything is symbolic in the extents n, e, c and the word width w; no index set is enumerated.
-/
import Idealize.ShloMosaic.PureOps.Ideal
import Idealize.ShloMosaic.Lib.ValueIdx

noncomputable section

open scoped BigOperators

namespace Cert.LibRows

open Idealize.ShloMosaic Idealize.ShloMosaic.ValueIdx

/-! ## Rows taken at an index vector -/

section RowGather
variable {α : Type}

/-- The dimension numbers of "rows of an [n, c] operand at an [e, 1] column of start indices": the result
    [e, c] has one offset axis (1), the operand's axis 0 is collapsed and is the one the start index names,
    the slice is one whole row. Their conditions wf are a parameter, decided on a program's literal shapes. -/
abbrev rowGatherDims (n e c : Nat)
    (wf : GatherDims.WF ⟨2, ![n, c]⟩ ⟨2, ![e, 1]⟩ ⟨2, ![e, c]⟩ [1] [0] [] [0] [] 1 ![1, c]) :
    GatherDims ⟨2, ![n, c]⟩ ⟨2, ![e, 1]⟩ ⟨2, ![e, c]⟩ where
  offsetDims := [1]
  collapsedSliceDims := [0]
  operandBatchingDims := []
  startIndicesBatchingDims := []
  startIndexMap := [0]
  indexVectorDim := 1
  sliceSizes := ![1, c]
  wf := wf

/-- THE ROW GATHER READ AT (p, q): the operand at row idx[p, 0] — read signed and clamped into
    [0, n − 1] — and column q. -/
theorem rowGather_apply {n e c w : Nat} (hn : 0 < n)
    (wf : GatherDims.WF ⟨2, ![n, c]⟩ ⟨2, ![e, 1]⟩ ⟨2, ![e, c]⟩ [1] [0] [] [0] [] 1 ![1, c])
    (x : (⟨2, ![n, c]⟩ : Shape).Idx → α) (idx : IVec ⟨2, ![e, 1]⟩ w) (p : Fin e) (q : Fin c) :
    Host.gather (rowGatherDims n e c wf) x idx (ix2 p q)
      = x (ix2 ⟨min (idx (ix2 p (0 : Fin 1))).toInt.toNat (n - 1), by omega⟩ q) := by
  unfold Host.gather
  congr 1
  funext a
  refine Fin.ext ?_
  match a with
  | ⟨0, _⟩ =>
    -- the row axis: collapsed (no offset), not batching, named by the start index map
    show (rowGatherDims n e c wf).start (ix2 p q) idx 0 + (rowGatherDims n e c wf).batchCoord (ix2 p q) 0
        + (rowGatherDims n e c wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims n e c wf).startIndexMap from List.mem_singleton.mpr rfl)]
    have hsi : (rowGatherDims n e c wf).siIdx (ix2 p q) ⟨List.idxOf (0 : Fin 2) (rowGatherDims n e c wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    -- the column axis: not named by the start index map (start 0), not batching, the result's offset axis
    show (rowGatherDims n e c wf).start (ix2 p q) idx 1 + (rowGatherDims n e c wf).batchCoord (ix2 p q) 1
        + (rowGatherDims n e c wf).offCoord (ix2 p q) 1 = _
    rw [GatherDims.batchCoord_eq_zero _ _ _ List.not_mem_nil]
    have hst : (rowGatherDims n e c wf).start (ix2 p q) idx 1 = 0 := by
      unfold GatherDims.start
      rw [dif_neg (show (1 : Fin 2) ∉ ([0] : List (Fin 2)) by decide)]
    rw [hst]
    simp only [Nat.add_zero, Nat.zero_add]
    rfl

end RowGather

/-! ## Rows added at an index vector -/

section RowScatter

/-- The dimension numbers of "rows of [e, c] updates added into an [n, c] operand at an [e, 1] column of
    scatter indices": the updates' axis 1 is the window axis (a whole row), the operand's axis 0 is inserted
    and is the one the scatter index names. Their conditions wf are a parameter, decided on a program's
    literal shapes. -/
abbrev rowScatterDims (n e c : Nat)
    (wf : ScatterDims.WF ⟨2, ![n, c]⟩ ⟨2, ![e, 1]⟩ ⟨2, ![e, c]⟩ [1] [0] [0] 1) :
    ScatterDims ⟨2, ![n, c]⟩ ⟨2, ![e, 1]⟩ ⟨2, ![e, c]⟩ where
  updateWindowDims := [1]
  insertedWindowDims := [0]
  scatterDimsToOperandDims := [0]
  indexVectorDim := 1
  wf := wf

/-- An axis is kept by a list of axes exactly when it is not in the list. -/
theorem mem_kept {s : Shape} (axes : List (Fin s.rank)) (a : Fin s.rank) : a ∈ s.kept axes ↔ a ∉ axes := by
  simp [Shape.kept, List.mem_filter, List.mem_finRange]

variable {n e c w : Nat} (wf : ScatterDims.WF ⟨2, ![n, c]⟩ ⟨2, ![e, 1]⟩ ⟨2, ![e, c]⟩ [1] [0] [0] 1)

/-- On the row axis the window of update (p, q) starts at the word idx[p, 0], read signed … -/
theorem rowScatter_start_row (idx : IVec ⟨2, ![e, 1]⟩ w) (p : Fin e) (q : Fin c) :
    (rowScatterDims n e c wf).start (ix2 p q) idx 0 = (idx (ix2 p (0 : Fin 1))).toInt := by
  unfold ScatterDims.start
  rw [dif_pos (show (0 : Fin 2) ∈ ([0] : List (Fin 2)) from List.mem_singleton.mpr rfl)]
  have hsi : (rowScatterDims n e c wf).siIdx (ix2 p q) ⟨List.idxOf (0 : Fin 2) (rowScatterDims n e c wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- … and on the column axis, which no scatter index names, at 0. -/
theorem rowScatter_start_col (idx : IVec ⟨2, ![e, 1]⟩ w) (p : Fin e) (q : Fin c) :
    (rowScatterDims n e c wf).start (ix2 p q) idx 1 = 0 := by
  unfold ScatterDims.start
  rw [dif_neg (show (1 : Fin 2) ∉ ([0] : List (Fin 2)) by decide)]

/-- The row axis is inserted: no window coordinate. -/
theorem rowScatter_window_row (p : Fin e) (q : Fin c) : (rowScatterDims n e c wf).window (ix2 p q) 0 = 0 := by
  unfold ScatterDims.window
  rw [dif_neg (fun h => (mem_kept (s := ⟨2, ![n, c]⟩) [0] 0).mp h (List.mem_singleton.mpr rfl))]

/-- The column axis carries the update's column. -/
theorem rowScatter_window_col (p : Fin e) (q : Fin c) : (rowScatterDims n e c wf).window (ix2 p q) 1 = q.val := by
  unfold ScatterDims.window
  rw [dif_pos ((mem_kept (s := ⟨2, ![n, c]⟩) [0] 1).mpr (show (1 : Fin 2) ∉ ([0] : List (Fin 2)) by decide))]
  rfl

/-- WHERE UPDATE (p, q) LANDS: on the operand's element (r, q') exactly when the word idx[p, 0], read
    signed, is r, and the columns agree. (An index below 0 or from n on lands nowhere.) -/
theorem rowScatter_resultIdx (idx : IVec ⟨2, ![e, 1]⟩ w) (p : Fin e) (q : Fin c) (r : Fin n) (q' : Fin c) :
    (rowScatterDims n e c wf).resultIdx? (ix2 p q) idx = some (ix2 r q')
      ↔ ((idx (ix2 p (0 : Fin 1))).toInt = (r.val : Int) ∧ q = q') := by
  have h0 := rowScatter_start_row wf idx p q
  have h1 := rowScatter_start_col wf idx p q
  have w0 := rowScatter_window_row wf p q
  have w1 := rowScatter_window_col wf p q
  unfold ScatterDims.resultIdx?
  constructor
  · intro h
    split at h
    · rename_i hb
      have hf := Option.some.inj h
      have e0 := congrArg (fun f => (f 0).val) hf
      have e1 := congrArg (fun f => (f 1).val) hf
      have b0 := (hb 0).1
      simp only [h0, w0, h1, w1] at e0 e1 b0
      change ((idx (ix2 p (0 : Fin 1))).toInt + ((0 : Nat) : Int)).toNat = r.val at e0
      change ((0 : Int) + (q.val : Int)).toNat = q'.val at e1
      refine ⟨by omega, Fin.ext (by omega)⟩
    · exact absurd h (by simp)
  · rintro ⟨hr, rfl⟩
    have hb : ∀ a, 0 ≤ (rowScatterDims n e c wf).start (ix2 p q) idx a + ((rowScatterDims n e c wf).window (ix2 p q) a : Int)
        ∧ (rowScatterDims n e c wf).start (ix2 p q) idx a + ((rowScatterDims n e c wf).window (ix2 p q) a : Int)
          < ((⟨2, ![n, c]⟩ : Shape).size a : Int) := by
      intro a
      match a with
      | ⟨0, _⟩ =>
        show 0 ≤ (rowScatterDims n e c wf).start (ix2 p q) idx 0 + ((rowScatterDims n e c wf).window (ix2 p q) 0 : Int)
          ∧ (rowScatterDims n e c wf).start (ix2 p q) idx 0 + ((rowScatterDims n e c wf).window (ix2 p q) 0 : Int) < (n : Int)
        rw [h0, w0, hr]
        have := r.isLt
        omega
      | ⟨1, _⟩ =>
        show 0 ≤ (rowScatterDims n e c wf).start (ix2 p q) idx 1 + ((rowScatterDims n e c wf).window (ix2 p q) 1 : Int)
          ∧ (rowScatterDims n e c wf).start (ix2 p q) idx 1 + ((rowScatterDims n e c wf).window (ix2 p q) 1 : Int) < (c : Int)
        rw [h1, w1]
        have := q.isLt
        omega
    rw [dif_pos hb]
    congr 1
    funext a
    refine Fin.ext ?_
    match a with
    | ⟨0, _⟩ =>
      show ((rowScatterDims n e c wf).start (ix2 p q) idx 0 + ((rowScatterDims n e c wf).window (ix2 p q) 0 : Int)).toNat = r.val
      rw [h0, w0, hr]; omega
    | ⟨1, _⟩ =>
      show ((rowScatterDims n e c wf).start (ix2 p q) idx 1 + ((rowScatterDims n e c wf).window (ix2 p q) 1 : Int)).toNat = q.val
      rw [h1, w1]; omega

/-- THE ROW SCATTER-ADD READ AT (r, q), over the extended reals: the operand's element plus the sum over all
    update rows p of upd[p, q] where idx[p, 0] = r (read signed), of 0 elsewhere. -/
theorem rowScatterAdd_apply (x : (⟨2, ![n, c]⟩ : Shape).Idx → EReal) (idx : IVec ⟨2, ![e, 1]⟩ w)
    (upd : (⟨2, ![e, c]⟩ : Shape).Idx → EReal) (r : Fin n) (q : Fin c) :
    Host.scatterAdd (F := Ideal) (φ := .f32) (rowScatterDims n e c wf) x idx upd (ix2 r q)
      = x (ix2 r q) + ∑ p : Fin e, if (idx (ix2 p (0 : Fin 1))).toInt = (r.val : Int) then upd (ix2 p q) else 0 := by
  show x (ix2 r q) + ∑ j ∈ Finset.univ.filter (fun j => (rowScatterDims n e c wf).resultIdx? j idx = some (ix2 r q)), upd j = _
  congr 1
  rw [Finset.sum_filter, sum_idx2]
  refine Finset.sum_congr rfl fun p _ => ?_
  simp only [rowScatter_resultIdx]
  by_cases hp : (idx (ix2 p (0 : Fin 1))).toInt = (r.val : Int)
  · simp only [hp, true_and]
    rw [Finset.sum_ite_eq' Finset.univ q (fun b => upd (ix2 p b))]
    simp
  · simp only [hp, false_and, if_false, Finset.sum_const_zero]

end RowScatter

/-! ## Entries added into a vector at an index vector -/

section VecScatter

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of "entries of [e] updates added into an [n] operand at an [e, 1] column of scatter
    indices": the updates have no window axis, the operand's one axis is inserted and is the one the scatter
    index names. Their conditions wf are a parameter, decided on a program's literal shapes. -/
abbrev rowScatterDims1 (n e : Nat)
    (wf : ScatterDims.WF ⟨1, ![n]⟩ ⟨2, ![e, 1]⟩ ⟨1, ![e]⟩ [] [0] [0] 1) :
    ScatterDims ⟨1, ![n]⟩ ⟨2, ![e, 1]⟩ ⟨1, ![e]⟩ where
  updateWindowDims := []
  insertedWindowDims := [0]
  scatterDimsToOperandDims := [0]
  indexVectorDim := 1
  wf := wf

variable {n e w : Nat} (wf : ScatterDims.WF ⟨1, ![n]⟩ ⟨2, ![e, 1]⟩ ⟨1, ![e]⟩ [] [0] [0] 1)

/-- The window of update p starts at the word idx[p, 0], read signed … -/
theorem rowScatter1_start (idx : IVec ⟨2, ![e, 1]⟩ w) (p : Fin e) :
    (rowScatterDims1 n e wf).start (ix1 p) idx 0 = (idx (ix2 p (0 : Fin 1))).toInt := by
  unfold ScatterDims.start
  rw [dif_pos (show (0 : Fin 1) ∈ ([0] : List (Fin 1)) from List.mem_singleton.mpr rfl)]
  have hsi : (rowScatterDims1 n e wf).siIdx (ix1 p) ⟨List.idxOf (0 : Fin 1) (rowScatterDims1 n e wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- … and the operand's one axis is inserted: no window coordinate. -/
theorem rowScatter1_window (p : Fin e) : (rowScatterDims1 n e wf).window (ix1 p) 0 = 0 := by
  unfold ScatterDims.window
  rw [dif_neg (fun h => (mem_kept (s := ⟨1, ![n]⟩) [0] 0).mp h (List.mem_singleton.mpr rfl))]

/-- WHERE UPDATE p LANDS: on the operand's element r exactly when the word idx[p, 0], read signed, is r. -/
theorem rowScatter1_resultIdx (idx : IVec ⟨2, ![e, 1]⟩ w) (p : Fin e) (r : Fin n) :
    (rowScatterDims1 n e wf).resultIdx? (ix1 p) idx = some (ix1 r)
      ↔ (idx (ix2 p (0 : Fin 1))).toInt = (r.val : Int) := by
  have h0 := rowScatter1_start wf idx p
  have w0 := rowScatter1_window wf p
  unfold ScatterDims.resultIdx?
  constructor
  · intro h
    split at h
    · rename_i hb
      have hf := Option.some.inj h
      have e0 := congrArg (fun f => (f 0).val) hf
      have b0 := (hb 0).1
      simp only [h0, w0] at e0 b0
      change ((idx (ix2 p (0 : Fin 1))).toInt + ((0 : Nat) : Int)).toNat = r.val at e0
      omega
    · exact absurd h (by simp)
  · intro hr
    have hb : ∀ a, 0 ≤ (rowScatterDims1 n e wf).start (ix1 p) idx a + ((rowScatterDims1 n e wf).window (ix1 p) a : Int)
        ∧ (rowScatterDims1 n e wf).start (ix1 p) idx a + ((rowScatterDims1 n e wf).window (ix1 p) a : Int)
          < ((⟨1, ![n]⟩ : Shape).size a : Int) := by
      intro a
      match a with
      | ⟨0, _⟩ =>
        show 0 ≤ (rowScatterDims1 n e wf).start (ix1 p) idx 0 + ((rowScatterDims1 n e wf).window (ix1 p) 0 : Int)
          ∧ (rowScatterDims1 n e wf).start (ix1 p) idx 0 + ((rowScatterDims1 n e wf).window (ix1 p) 0 : Int) < (n : Int)
        rw [h0, w0, hr]
        have := r.isLt
        omega
    rw [dif_pos hb]
    congr 1
    funext a
    refine Fin.ext ?_
    match a with
    | ⟨0, _⟩ =>
      show ((rowScatterDims1 n e wf).start (ix1 p) idx 0 + ((rowScatterDims1 n e wf).window (ix1 p) 0 : Int)).toNat = r.val
      rw [h0, w0, hr]; omega

/-- THE VECTOR SCATTER-ADD READ AT r, over the extended reals: the operand's element plus the sum over all
    updates p of upd[p] where idx[p, 0] = r (read signed), of 0 elsewhere. -/
theorem rowScatterAdd1_apply (x : (⟨1, ![n]⟩ : Shape).Idx → EReal) (idx : IVec ⟨2, ![e, 1]⟩ w)
    (upd : (⟨1, ![e]⟩ : Shape).Idx → EReal) (r : Fin n) :
    Host.scatterAdd (F := Ideal) (φ := .f32) (rowScatterDims1 n e wf) x idx upd (ix1 r)
      = x (ix1 r) + ∑ p : Fin e, if (idx (ix2 p (0 : Fin 1))).toInt = (r.val : Int) then upd (ix1 p) else 0 := by
  show x (ix1 r) + ∑ j ∈ Finset.univ.filter (fun j => (rowScatterDims1 n e wf).resultIdx? j idx = some (ix1 r)), upd j = _
  congr 1
  rw [Finset.sum_filter, sum_idx1]
  refine Finset.sum_congr rfl fun p _ => ?_
  simp only [rowScatter1_resultIdx]

end VecScatter

end Cert.LibRows

end
-- ==== Proof.RefValue.lean ====
/-
  The reference's result as a function of the two label volumes.

  The reference sorts the 4 · 4096000 voxels of each volume by the key label + 10 · batch and adds, into 40 zeros,
  a one per voxel (the counts c_pred and c_true) or the indicator that the two volumes agree at the voxel (the
  intersection, at the first volume's keys); each 40-vector is then read as a [4, 10] table. With every label in
  [0, 10) the key 10 · b + c is met exactly by label c in batch b, so the tables are the counts HP x0, HP x1 and
  HI x0 x1 (v16_eq, v20_eq, v27_eq). The closing arithmetic, a function tailR of the three tables, drops class 0,
  weighs each class's score 2 · intersection / (c_pred + c_true) by c_true over its batch's total (classes 1 … 9)
  and over 4, on the classes present (c_pred + c_true > 0; 0 elsewhere), and returns 1 minus the weighted scores'
  total (v49_eq_tail; result_eq puts the two together).
-/
import proofs.«425035_j62173946577085_3_alg».proof.Defs
import proofs.«425035_j62173946577085_3_alg».proof.Proof.RefRead
import proofs.«425035_j62173946577085_3_alg».proof.Proof.Spec
import proofs.«425035_j62173946577085_3_alg».proof.Proof.Count
import proofs.«425035_j62173946577085_3_alg».proof.Proof.LibRows
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.ReadP Cert.Hist
open Idealize.ShloMosaic Idealize.ShloMosaic.ValueIdx

/-- A label volume's contents at the ideal instance: one 32-bit word per voxel. -/
abbrev VolC := (⟨S4x1x160x160x160, .i32⟩ : BufTy).Contents (Elt Ideal)

/-- The reference's closing arithmetic (its operations %28 … %49) as ONE function of the three [4, 10] tables
    c_pred, c_true, intersection. -/
def tailR (cp ct ci : FVec Ideal S4x10 .f32) : FVec Ideal S_ .f32 :=
  -- the union table c_pred + c_true, and the three tables without their class-0 column
  let sum : FVec Ideal S4x10 .f32 := addf cp ct
  let ci9 : FVec Ideal S4x9 .f32 := extractStridedSlice S4x9 ![0, 1] ci slices_S4x10_S4x9_0_1
  let sum9 : FVec Ideal S4x9 .f32 := extractStridedSlice S4x9 ![0, 1] sum slices_S4x10_S4x9_0_1
  let ct9 : FVec Ideal S4x9 .f32 := extractStridedSlice S4x9 ![0, 1] ct slices_S4x10_S4x9_0_1
  -- where a class is present (union > 0): the denominator is the union there, 1 elsewhere
  let present : IVec S4x9 1 :=
    cmpf .ogt sum9 (broadcastInDim S4x9 ![] bcast_S_S4x9 (constant (F := Ideal) S_ .f32 0x00000000#32))
  let den : FVec Ideal S4x9 .f32 :=
    select present sum9 (broadcastInDim S4x9 ![] bcast_S_S4x9 (constant (F := Ideal) S_ .f32 0x3F800000#32))
  -- the per-class score 2 · intersection / union where present, 0 elsewhere
  let two_ci : FVec Ideal S4x9 .f32 :=
    mulf (broadcastInDim S4x9 ![] bcast_S_S4x9 (constant (F := Ideal) S_ .f32 0x40000000#32)) ci9
  let ratio : FVec Ideal S4x9 .f32 := Host.divf (F := Ideal) two_ci den
  let score : FVec Ideal S4x9 .f32 :=
    select present ratio (broadcastInDim S4x9 ![] bcast_S_S4x9 (constant (F := Ideal) S_ .f32 0x00000000#32))
  -- the per-class weight c_true / (its row total) / 4 where present, 0 elsewhere
  let rowTot : FVec Ideal S4 .f32 :=
    Host.reduceAdd (F := Ideal) ct9 (constant (F := Ideal) S_ .f32 0x00000000#32) reducesTo_S4x9_S4_d1 h_S_
  let rowTot9 : FVec Ideal S4x9 .f32 :=
    broadcastInDim S4x9 ![0, 1] bcast_S4x1_S4x9_0_1 (broadcastInDim S4x1 ![0] bcast_S4_S4x1_0 rowTot)
  let w0 : FVec Ideal S4x9 .f32 := Host.divf (F := Ideal) ct9 rowTot9
  let w1 : FVec Ideal S4x9 .f32 :=
    Host.divf (F := Ideal) w0 (broadcastInDim S4x9 ![] bcast_S_S4x9 (constant (F := Ideal) S_ .f32 0x40800000#32))
  let weight : FVec Ideal S4x9 .f32 :=
    select present w1 (broadcastInDim S4x9 ![] bcast_S_S4x9 (constant (F := Ideal) S_ .f32 0x00000000#32))
  -- 1 − the weighted scores' total
  let total : FVec Ideal S_ .f32 :=
    Host.reduceAdd (F := Ideal) (mulf weight score) (constant (F := Ideal) S_ .f32 0x00000000#32) reducesTo_S4x9_S_d0_1 h_S_
  subf (constant (F := Ideal) S_ .f32 0x3F800000#32) total

theorem v49_eq_tail (x0 x1 : VolC) :
    val_main_v49 (F := Ideal) x0 x1
      = tailR (val_main_v16 (F := Ideal) x0) (val_main_v20 (F := Ideal) x1) (val_main_v27 (F := Ideal) x0 x1) := rfl

/-! ## The three histograms

  Each is a scatter-add into 40 zeros at the key column label + 10 · batch; read at entry 10 · b + c it is a sum
  over the voxels of batch b labelled c (hist_apply), of ones for the two counts and of the match indicator for
  the intersection. -/

/-- The f32 word 0x3F800000 is the real number 1. -/
theorem ofBits_one_f32 : Ideal.ofBits .f32 0x3F800000#32 = 1 := by
  simp [Ideal.ofBits, Ideal.ieee]
  norm_num [← EReal.coe_mul]

/-- The program's scatter dimension numbers are those of "entries added into a vector at a column of indices". -/
theorem dims_eq : scatter_S40_S16384000x1_S16384000_n_0_0_1
    = Cert.LibRows.rowScatterDims1 40 16384000 scatter_S40_S16384000x1_S16384000_n_0_0_1_wf := rfl

/-- Flat position p, cut into (batch, position in the batch) and then into the five coordinates, is voxel p. -/
theorem vox_eq (p : Fin 16384000) : idx_main_v0 (idx_main_v8 (ix1 p)) = vox p.val := by
  funext a
  have hp := p.isLt
  match a with
  | ⟨0, _⟩ => refine Fin.ext ?_; show ((p.val / 4096000) * 4096000 + p.val % 4096000) / 4096000 = p.val / 4096000 % 4; omega
  | ⟨1, _⟩ => rfl
  | ⟨2, _⟩ => refine Fin.ext ?_; show ((p.val / 4096000) * 4096000 + p.val % 4096000) / 25600 % 160 = p.val / 25600 % 160; omega
  | ⟨3, _⟩ => refine Fin.ext ?_; show ((p.val / 4096000) * 4096000 + p.val % 4096000) / 160 % 160 = p.val / 160 % 160; omega
  | ⟨4, _⟩ => refine Fin.ext ?_; show ((p.val / 4096000) * 4096000 + p.val % 4096000) % 160 = p.val % 160; omega

/-- The key column of the first volume at row p: the label of voxel p plus 10 times its batch. -/
theorem key14 (x : VolC) (p : Fin 16384000) :
    val_main_v14 (F := Ideal) x (ix2 p (0 : Fin 1))
      = IntOp.addi (x (vox p.val)) (IntOp.muli (BitVec.ofNat 32 (p.val / 4096000)) 10#32) := by
  have e : idx_main_v14 (ix2 p (0 : Fin 1)) = ix1 p := by funext a; match a with | ⟨0, _⟩ => rfl
  rw [val_main_v14_apply, e, val_main_v8_apply, val_main_v7_apply, val_main_v0_apply, vox_eq, val_main_v6_apply,
    val_main_v5_apply, val_main_v4_apply, val_main_v2_apply, val_main_v3_apply, val_main_c_apply]

/-- THE HISTOGRAM READ AT (b, c). Updates u added into 40 zeros at a key column whose row p is the label of
    voxel p in x plus 10 times the voxel's batch: entry 10 · b + c is the sum of u over the voxels of batch b
    labelled c (labels are in [0, 10), so no other voxel has that key). -/
theorem hist_apply (x : VolC) (hx : ∀ i, (x i).toNat < 10) (z : FVec Ideal S40 .f32) (hz : ∀ r, z r = 0)
    (kcol : IVec S16384000x1 32)
    (hk : ∀ p : Fin 16384000, kcol (ix2 p (0 : Fin 1))
      = IntOp.addi (x (vox p.val)) (IntOp.muli (BitVec.ofNat 32 (p.val / 4096000)) 10#32))
    (u : FVec Ideal S16384000 .f32) (b : Fin 4) (c : Fin 10) (r : Fin 40) (hr : r.val = b.val * 10 + c.val) :
    Host.scatterAdd (F := Ideal) scatter_S40_S16384000x1_S16384000_n_0_0_1 z kcol u (ix1 r)
      = ∑ p : Fin 16384000, if p.val / 4096000 = b.val then
          (if x (vox p.val) = BitVec.ofNat 32 c.val then u (ix1 p) else 0) else 0 := by
  rw [dims_eq, Cert.LibRows.rowScatterAdd1_apply, hz, zero_add]
  refine Finset.sum_congr rfl fun p _ => ?_
  rw [hk p, hr]
  have hp := p.isLt
  have key := key_iff (x (vox p.val)) (hx _) (p.val / 4096000) b.val c.val (by omega) b.isLt c.isLt
  by_cases hb : p.val / 4096000 = b.val
  · by_cases hc : x (vox p.val) = BitVec.ofNat 32 c.val
    · rw [if_pos (key.mpr ⟨hb, hc⟩), if_pos hb, if_pos hc]
    · rw [if_neg (fun h => hc (key.mp h).2), if_pos hb, if_neg hc]
  · rw [if_neg (fun h => hb (key.mp h).1), if_neg hb]

/-- A [4, 10] table's entry (b, c) is entry 10 · b + c of the 40-vector it reshapes. -/
theorem idx16 (b : Fin 4) (c : Fin 10) : idx_main_v16 (ix2 b c) = ix1 (⟨b.val * 10 + c.val, by omega⟩ : Fin 40) := by
  funext a; match a with | ⟨0, _⟩ => rfl

/-- Entry p of the all-ones update vector is 1, so the ones' histogram is the count histP. -/
theorem ones_sum (x : VolC) (b c : ℕ) :
    (∑ p : Fin 16384000, if p.val / 4096000 = b then
        (if x (vox p.val) = BitVec.ofNat 32 c then val_main_v12 (F := Ideal) (ix1 p) else 0) else 0) = histP x b c := by
  unfold histP isC
  refine Finset.sum_congr rfl fun p _ => ?_
  rw [val_main_v12_apply, val_main_cst_apply]
  show _ = if p.val / 4096000 = b then (if x (vox p.val) = BitVec.ofNat 32 c then (1 : EReal) else 0) else 0
  rw [show (FloatOps.ofBits (F := Ideal) .f32 0x3F800000#32) = (1 : EReal) from ofBits_one_f32]

theorem v16_eq (x0 : VolC) (h0 : ∀ i, (x0 i).toNat < 10) : val_main_v16 (F := Ideal) x0 = HP x0 := by
  funext i
  obtain ⟨b, c, rfl⟩ : ∃ (b : Fin 4) (c : Fin 10), i = ix2 b c := ⟨i 0, i 1, eq_ix2 i⟩
  rw [val_main_v16_apply, idx16]
  unfold val_main_v15
  rw [hist_apply x0 h0 _ (fun r => by rw [val_main_v13_apply, val_main_cst_0_apply]; exact Ideal.ofBits_zero_f32)
    _ (key14 x0) _ b c _ rfl]
  exact ones_sum x0 b.val c.val

/-- The same cut for the second volume's stages. -/
theorem vox_eq1 (p : Fin 16384000) : idx_main_v1 (idx_main_v11 (ix1 p)) = vox p.val := vox_eq p

/-- The key column of the second volume at row p. -/
theorem key18 (x : VolC) (p : Fin 16384000) :
    val_main_v18 (F := Ideal) x (ix2 p (0 : Fin 1))
      = IntOp.addi (x (vox p.val)) (IntOp.muli (BitVec.ofNat 32 (p.val / 4096000)) 10#32) := by
  have e : idx_main_v18 (ix2 p (0 : Fin 1)) = ix1 p := by funext a; match a with | ⟨0, _⟩ => rfl
  rw [val_main_v18_apply, e, val_main_v11_apply, val_main_v10_apply, val_main_v1_apply, vox_eq1, val_main_v9_apply,
    val_main_v5_apply, val_main_v4_apply, val_main_v2_apply, val_main_v3_apply, val_main_c_apply]

theorem idx20 (b : Fin 4) (c : Fin 10) : idx_main_v20 (ix2 b c) = ix1 (⟨b.val * 10 + c.val, by omega⟩ : Fin 40) := idx16 b c

theorem v20_eq (x1 : VolC) (h1 : ∀ i, (x1 i).toNat < 10) : val_main_v20 (F := Ideal) x1 = HP x1 := by
  funext i
  obtain ⟨b, c, rfl⟩ : ∃ (b : Fin 4) (c : Fin 10), i = ix2 b c := ⟨i 0, i 1, eq_ix2 i⟩
  rw [val_main_v20_apply, idx20]
  unfold val_main_v19
  rw [hist_apply x1 h1 _ (fun r => by rw [val_main_v17_apply, val_main_cst_1_apply]; exact Ideal.ofBits_zero_f32)
    _ (key18 x1) _ b c _ rfl]
  exact ones_sum x1 b.val c.val

/-- The bit [a = a'] as a float is 1 where the words agree, 0 elsewhere. -/
theorem uitofp_bit (a a' : BitVec 32) :
    (FloatOps.uitofp (F := Ideal) .f32 (IntOp.cmpi .eq a a') : EReal) = if a = a' then 1 else 0 := by
  show (((IntOp.cmpi .eq a a').toNat : ℝ) : EReal) = _
  by_cases h : a = a'
  · subst h; rw [if_pos rfl]; simp [IntOp.cmpi]
  · rw [if_neg h]
    have hne : (a == a') = false := by simpa using h
    simp [IntOp.cmpi, hne]

theorem vox_eq22a (p : Fin 16384000) : idx_main_v0 (idx_main_v22 (ix1 p)) = vox p.val := vox_eq p
theorem vox_eq22b (p : Fin 16384000) : idx_main_v1 (idx_main_v22 (ix1 p)) = vox p.val := vox_eq p

/-- Entry p of the match indicator: 1 where the two volumes agree at voxel p, 0 elsewhere. -/
theorem upd23 (x0 x1 : VolC) (p : Fin 16384000) :
    val_main_v23 (F := Ideal) x0 x1 (ix1 p) = if x0 (vox p.val) = x1 (vox p.val) then 1 else 0 := by
  rw [val_main_v23_apply, val_main_v22_apply, val_main_v21_apply, val_main_v0_apply, val_main_v1_apply,
    vox_eq22a, vox_eq22b, uitofp_bit]

/-- The intersection's key column is the first volume's. -/
theorem key25 (x : VolC) (p : Fin 16384000) :
    val_main_v25 (F := Ideal) x (ix2 p (0 : Fin 1))
      = IntOp.addi (x (vox p.val)) (IntOp.muli (BitVec.ofNat 32 (p.val / 4096000)) 10#32) := key14 x p

theorem idx27 (b : Fin 4) (c : Fin 10) : idx_main_v27 (ix2 b c) = ix1 (⟨b.val * 10 + c.val, by omega⟩ : Fin 40) := idx16 b c

theorem v27_eq (x0 x1 : VolC) (h0 : ∀ i, (x0 i).toNat < 10) : val_main_v27 (F := Ideal) x0 x1 = HI x0 x1 := by
  funext i
  obtain ⟨b, c, rfl⟩ : ∃ (b : Fin 4) (c : Fin 10), i = ix2 b c := ⟨i 0, i 1, eq_ix2 i⟩
  rw [val_main_v27_apply, idx27]
  unfold val_main_v26
  rw [hist_apply x0 h0 _ (fun r => by rw [val_main_v24_apply, val_main_cst_2_apply]; exact Ideal.ofBits_zero_f32)
    _ (key25 x0) _ b c _ rfl]
  show _ = histI x0 x1 b.val c.val
  unfold histI isC
  refine Finset.sum_congr rfl fun p _ => ?_
  rw [upd23]
  by_cases hb : p.val / 4096000 = b.val
  · rw [if_pos hb, if_pos hb]
    by_cases hc : x0 (vox p.val) = BitVec.ofNat 32 c.val
    · rw [if_pos hc, if_pos hc, one_mul, hc]
      by_cases hc1 : x1 (vox p.val) = BitVec.ofNat 32 c.val
      · rw [if_pos hc1.symm, if_pos hc1]
      · rw [if_neg (fun h => hc1 h.symm), if_neg hc1]
    · rw [if_neg hc, if_neg hc, zero_mul]
  · rw [if_neg hb, if_neg hb]

theorem result_eq (x0 x1 : VolC) (h0 : ∀ i, (x0 i).toNat < 10) (h1 : ∀ i, (x1 i).toNat < 10) :
    val_main_v49 (F := Ideal) x0 x1 = tailR (HP x0) (HP x1) (HI x0 x1) := by
  rw [v49_eq_tail, v16_eq x0 h0, v20_eq x1 h1, v27_eq x0 x1 h0]

end Cert.ReferenceIdeal.RefValue

end
-- ==== Proof.PreLabels.lean ====
import proofs.«425035_j62173946577085_3_alg».proof.Defs
import proofs.«425035_j62173946577085_3_alg».proof.Proof.Gen.KernelIdeal
import proofs.«425035_j62173946577085_3_alg».proof.Proof.Gen.Pre_any_inputs
import Idealize.ShloMosaic.Lib.ReduceAll
import Idealize.ShloMosaic.Lib.StableHlo.Predicate

noncomputable section

namespace Cert.Proof.PreLabels

open Idealize.ShloMosaic Idealize.ShloMosaic.TcCoe Idealize.SL.Sem

/-- A 32-bit word that is, read as a signed integer, at least 0 and below 10 has unsigned value below 10:
    a nonnegative signed reading is the unsigned reading. -/
theorem word_lt_ten (w : BitVec 32) (h0 : IntOp.cmpi .sge w 0#32 = 1#1) (h1 : IntOp.cmpi .slt w 10#32 = 1#1) :
    w.toNat < 10 := by
  rw [IntOp.cmpi_sge] at h0
  rw [IntOp.cmpi_slt] at h1
  have e0 : (0#32 : BitVec 32).toInt = 0 := by decide
  have e10 : (10#32 : BitVec 32).toInt = 10 := by decide
  rw [e0] at h0
  rw [e10] at h1
  have hc := BitVec.toInt_eq_toNat_cond w
  have hl := w.isLt
  split at hc <;> omega

/-- THE PRECONDITION DECODED: every entry of both label volumes is a class label, a word in [0, 10). -/
theorem labels_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, (m ((c.tc : Thread Cert.KernelIdeal.nD Cert.KernelIdeal.τ).loc Cert.KernelIdeal.main_arg0) i).toNat < 10)
    ∧ (∀ i, (m ((c.tc : Thread Cert.KernelIdeal.nD Cert.KernelIdeal.τ).loc Cert.KernelIdeal.main_arg1) i).toNat < 10) := by
  -- The precondition at the scalar result's one index: the conjunction over all entries of the mask is 1.
  have e := congrFun (h c) (fun a => a.elim0)
  unfold Cert.Pre_any_inputs.fn at e
  dsimp only at e
  haveI : Subsingleton Cert.Pre_any_inputs.S_.Idx := ⟨fun a b => funext fun d => d.elim0⟩
  -- A conjunction over every axis that comes out 1 met a 1 at every entry of the mask.
  have key := fun i => Host.reduce_andi_all _ _ _ _ _ e i
  -- The mask at entry i is the conjunction of the four comparisons of the two words at i with 0 and 10.
  simp only [andi, cmpi, broadcastInDim, constantI, IntOp.andi_eq_one] at key
  refine ⟨fun i => ?_, fun i => ?_⟩
  · obtain ⟨⟨⟨a0, a1⟩, -⟩, -⟩ := key i
    exact word_lt_ten _ a0 a1
  · obtain ⟨⟨-, b0⟩, b1⟩ := key i
    exact word_lt_ten _ b0 b1

/-- The ideal pass's ledger: fifty times the rule that a widening after a narrowing of the same value is the value. -/
theorem preserves : Cert.preserves_Kernel_KernelIdeal := by
  unfold Cert.preserves_Kernel_KernelIdeal
  refine ⟨?_, ?_, ?_, ?_, ?_, ?_, ?_, ?_, ?_, ?_, ?_, ?_, ?_, ?_, ?_, ?_, ?_, ?_, ?_, ?_, ?_, ?_, ?_, ?_, ?_,
    ?_, ?_, ?_, ?_, ?_, ?_, ?_, ?_, ?_, ?_, ?_, ?_, ?_, ?_, ?_, ?_, ?_, ?_, ?_, ?_, ?_, ?_, ?_, ?_, ?_⟩ <;>
    exact IdealRules.truncf_extf.statement _ _ _

end Cert.Proof.PreLabels

end
-- ==== Proof.KTail.lean ====
import proofs.«425035_j62173946577085_3_alg».proof.Defs
import proofs.«425035_j62173946577085_3_alg».proof.Proof.Gen.KernelIdeal.Frame
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.KTail

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The two per-core partial tables added up: the host's sum over axis 0 of a [2, 4, 10] array, from 0. -/
def sum2 (a : FVec Ideal S2x4x10 .f32) : FVec Ideal S4x10 .f32 :=
  Host.reduceAdd (F := Ideal) a (constant (F := Ideal) S_ .f32 0x00000000#32) reducesTo_S2x4x10_S4x10_d0 h_S_

/-- Read at (b, k): the two cores' entries added. -/
theorem sum2_apply (a : FVec Ideal S2x4x10 .f32) (b : Fin 4) (k : Fin 10) :
    sum2 a (ix2 b k) = a (ix3 (0 : Fin 2) b k) + a (ix3 (1 : Fin 2) b k) := by
  have h : S2x4x10.Reduces [0] S4x10 := by decide
  unfold sum2
  show Ideal.hostReduceAdd reducesTo_S2x4x10_S4x10_d0 a (Ideal.ofBits .f32 0x00000000#32) (ix2 b k) = _
  refine (Ideal.hostReduceAdd_single reducesTo_S2x4x10_S4x10_d0 h a _ (ix2 b k)).trans ?_
  rw [Ideal.ofBits_zero_f32, zero_add]
  refine (Fin.sum_univ_two (fun d : Fin 2 => a (h.lift (ix2 b k) d))).trans ?_
  have e0 : h.lift (ix2 b k) (0 : Fin 2) = ix3 (0 : Fin 2) b k := by
    funext d; match d with | ⟨0, _⟩ => rfl | ⟨1, _⟩ => rfl | ⟨2, _⟩ => rfl
  have e1 : h.lift (ix2 b k) (1 : Fin 2) = ix3 (1 : Fin 2) b k := by
    funext d; match d with | ⟨0, _⟩ => rfl | ⟨1, _⟩ => rfl | ⟨2, _⟩ => rfl
  show a (h.lift (ix2 b k) (0 : Fin 2)) + a (h.lift (ix2 b k) (1 : Fin 2)) = _
  rw [e0, e1]

/-- The kernel program's closing arithmetic (its host operations after the three sums over the cores) as ONE function
    of the three [4, 10] tables c_pred, c_true, intersection. -/
def tailK (cp ct ci : FVec Ideal S4x10 .f32) : FVec Ideal S_ .f32 :=
  -- the union table c_pred + c_true, and the class columns 1 … 9 of each table
  let v6 : FVec Ideal S4x10 .f32 := addf cp ct
  let v7 : FVec Ideal S4x9 .f32 := extractStridedSlice S4x9 ![0, 1] ci slices_S4x10_S4x9_0_1
  let v8 : FVec Ideal S4x9 .f32 := extractStridedSlice S4x9 ![0, 1] v6 slices_S4x10_S4x9_0_1
  let v10 : FVec Ideal S4x9 .f32 := extractStridedSlice S4x9 ![0, 1] ct slices_S4x10_S4x9_0_1
  -- where the union count is positive
  let v12 := cmpf .ogt v8 (broadcastInDim S4x9 ![] bcast_S_S4x9 (constant (F := Ideal) S_ .f32 0x00000000#32))
  -- the denominator: the union count there, 1 elsewhere
  let v13 : FVec Ideal S4x9 .f32 := select v12 v8 (broadcastInDim S4x9 ![] bcast_S_S4x9 (id (constant (F := Ideal) S_ .f32 0x3F800000#32)))
  -- the Dice score 2 · intersection / union there, 0 elsewhere
  let v16 : FVec Ideal S4x9 .f32 := Host.divf (F := Ideal) (mulf (broadcastInDim S4x9 ![] bcast_S_S4x9 (constant (F := Ideal) S_ .f32 0x40000000#32)) v7) v13
  let v17 : FVec Ideal S4x9 .f32 := select v12 v16 (broadcastInDim S4x9 ![] bcast_S_S4x9 (id (constant (F := Ideal) S_ .f32 0x00000000#32)))
  -- the weights: each row of c_true's class columns over its row sum, over 4; 0 where the union count is not positive
  let v18 : FVec Ideal S4 .f32 := Host.reduceAdd (F := Ideal) v10 (constant (F := Ideal) S_ .f32 0x00000000#32) reducesTo_S4x9_S4_d1 h_S_
  let v20 : FVec Ideal S4x9 .f32 := broadcastInDim S4x9 ![0, 1] bcast_S4x1_S4x9_0_1 (broadcastInDim S4x1 ![0] bcast_S4_S4x1_0 v18)
  let v23 : FVec Ideal S4x9 .f32 := Host.divf (F := Ideal) (Host.divf (F := Ideal) v10 v20) (broadcastInDim S4x9 ![] bcast_S_S4x9 (constant (F := Ideal) S_ .f32 0x40800000#32))
  let v24 : FVec Ideal S4x9 .f32 := select v12 v23 (broadcastInDim S4x9 ![] bcast_S_S4x9 (id (constant (F := Ideal) S_ .f32 0x00000000#32)))
  -- 1 − the weighted total
  subf (constant (F := Ideal) S_ .f32 0x3F800000#32)
    (Host.reduceAdd (F := Ideal) (mulf v24 v17) (constant (F := Ideal) S_ .f32 0x00000000#32) reducesTo_S4x9_S_d0_1 h_S_)

/-- What @main's host operations after the region leave in the result buffer, given the three output arrays of the
    region. -/
theorem tail_result (c : Dev nD) (a2 a3 a4 : FVec Ideal S2x4x10 .f32)
    (h2 : (dats m 0 c).arrAt 2 cfg0.N = a2) (h3 : (dats m 0 c).arrAt 3 cfg0.N = a3) (h4 : (dats m 0 c).arrAt 4 cfg0.N = a4) :
    Pipeline.afterTail₀ cfgs (dats m) 0 (V0 m) [hostOps1, hostOps1_1, hostOps1_2, hostOps1_3, hostOps1_4, hostOps1_5, hostOps1_6] c main_v27
      = tailK (sum2 a2) (sum2 a3) (sum2 a4) := by
  unfold Pipeline.afterTail₀
  simp only [hostOps1, hostOps1_1, hostOps1_2, hostOps1_3, hostOps1_4, hostOps1_5, hostOps1_6, List.flatten_cons, List.flatten_nil, List.append_nil, List.cons_append, List.nil_append]
  after_results_simp
  simp only [StableHlo.TRef.ofBuf, StableHlo.TRef.toBuf, cast_eq]
  have e2 : Pipeline.withArrays (cfgs 0).spec c (V0 m c) (fun w => (dats m 0 c).arrAt w (cfgs 0).N) (Proc.devRef .tc main_v2_0) = a2 :=
    (Pipeline.withArrays_arr spec0 launch0.win.arr_inj c _ _ 2).trans h2
  have e3 : Pipeline.withArrays (cfgs 0).spec c (V0 m c) (fun w => (dats m 0 c).arrAt w (cfgs 0).N) (Proc.devRef .tc main_v2_1) = a3 :=
    (Pipeline.withArrays_arr spec0 launch0.win.arr_inj c _ _ 3).trans h3
  have e4 : Pipeline.withArrays (cfgs 0).spec c (V0 m c) (fun w => (dats m 0 c).arrAt w (cfgs 0).N) (Proc.devRef .tc main_v2_2) = a4 :=
    (Pipeline.withArrays_arr spec0 launch0.win.arr_inj c _ _ 4).trans h4
  rw [e2, e3, e4]
  rfl

end Cert.KernelIdeal.KTail

end
-- ==== Proof.TailEq.lean ====
import proofs.«425035_j62173946577085_3_alg».proof.Proof.KTail
import proofs.«425035_j62173946577085_3_alg».proof.Proof.RefValue

set_option maxRecDepth 16384

noncomputable section

namespace Cert.Proof.TailEq

open Idealize.ShloMosaic

/-- The two programs close with the same arithmetic on the three [4, 10] tables: the union table, the class columns
    1 … 9, the comparison with 0, the three selections, the product, the two quotients, the row sums, the total and
    1 − it, in the same order with the same constants. The two spellings differ only in the names of the shapes
    [4, 10], [4, 9], [4], [4, 1], [] (the same literals in both programs), in the shape facts (propositions) and in an
    identity applied to three scalar constants, so the two functions are the same function. -/
theorem tail_eq (cp ct ci : FVec Ideal Cert.KernelIdeal.S4x10 .f32) :
    Cert.KernelIdeal.KTail.tailK cp ct ci = Cert.ReferenceIdeal.RefValue.tailR cp ct ci := rfl

end Cert.Proof.TailEq

end
-- ==== Proof.KOps.lean ====
/-
  The kernel body's vector operations read at an index, at the ideal instance.

  A class column of a tile x (shape [4, 8, 25600], labels) is computed as: the mask [x = c] as 0 / 1 reals, summed
  over the 8 slices of the tile, then over the 25600 lanes, kept as a [4, 1] column. Read at batch b it is the
  number of entries of x's batch b equal to c (col_apply over mask_apply). Ten such columns side by side are a
  [4, 10] table, and the body adds that table to the running
  table, which it holds as a [1, 4, 10] block (block_apply, unblock_apply: the unit axis dropped or added).
-/
import proofs.«425035_j62173946577085_3_alg».proof.Proof.Gen.KernelIdeal
import proofs.«425035_j62173946577085_3_alg».proof.Proof.Spec
import Idealize.ShloMosaic.Lib.ValueIdx
import Idealize.ShloMosaic.Lib.Pipeline.Value
import Idealize.ShloMosaic.PureOps.Ideal.Laws
import Idealize.ShloMosaic.Lib.StableHlo.Predicate

set_option maxRecDepth 16384

noncomputable section

open scoped BigOperators

namespace Cert.KernelIdeal.KOps

open Cert.KernelIdeal Cert.Hist
open Idealize.ShloMosaic Idealize.ShloMosaic.ValueIdx

/-- The mask of a class word cw over a tile of labels, as reals: 1 where the label is cw, 0 elsewhere. -/
theorem mask_apply (x : IVec S4x8x25600 32) (cw : BitVec 32) (h : 1 < 32) (i : S4x8x25600.Idx) :
    (sitofp (F := Ideal) .f32 (extui 32 (cmpi .eq x (broadcast S4x8x25600 cw)) h) : FVec Ideal S4x8x25600 .f32) i
      = if x i = cw then 1 else 0 := by
  show (((((IntOp.cmpi .eq (x i) cw).setWidth 32).toInt : ℝ)) : EReal) = _
  by_cases hx : x i = cw
  · rw [if_pos hx, (StableHlo.Predicate.cmpi_eq_iff).mpr hx]
    norm_num
  · rw [if_neg hx, eq_zero_of_ne_one (fun h1 => hx ((StableHlo.Predicate.cmpi_eq_iff).mp h1))]
    norm_num

/-- A class column read at batch b: the mask summed over the tile's lanes and slices. -/
theorem col_apply (M : FVec Ideal S4x8x25600 .f32) (b : Fin 4)
    (h1 : S4x8x25600.Reduces [1] S4x25600) (hf1 : FKind.Formats .f32)
    (ha1 : (0x00000000#32 : BitVec FTy.f32.bits) = FKind.add.neutral .f32 hf1)
    (h2 : S4x25600.Reduces [1] S4) (hf2 : FKind.Formats .f32)
    (ha2 : (0x00000000#32 : BitVec FTy.f32.bits) = FKind.add.neutral .f32 hf2) (hs : S4.ShapeCasts S4x1) :
    shapeCast S4x1 (multiReduction .add [1] S4 (multiReduction .add [1] S4x25600 M 0x00000000#32 h1 hf1 ha1)
        0x00000000#32 h2 hf2 ha2) hs (ix2 b (0 : Fin 1))
      = ∑ l : Fin 25600, ∑ k : Fin 8, M (ix3 b k l) := by
  rw [shapeCast_apply _ hs (ix2 b (0 : Fin 1)) (ix1 b)
    (by rewrite [Shape.rowMajor_val_one, Shape.rowMajor_val_two]; show b.val = b.val * 1 + 0; omega)]
  rw [Ideal.multiReduction_add_single]
  refine Finset.sum_congr rfl fun l _ => ?_
  rw [Ideal.multiReduction_add_single]
  refine Finset.sum_congr rfl fun k _ => ?_
  refine congrArg M ?_
  funext a
  match a with
  | ⟨0, _⟩ => rfl
  | ⟨1, _⟩ => rfl
  | ⟨2, _⟩ => rfl

/-- A [1, 4, 10] block read as a [4, 10] table, and back: the unit axis carries nothing. -/
theorem unblock_apply (v : FVec Ideal S1x4x10 .f32) (h : S1x4x10.ShapeCasts S4x10) (b : Fin 4) (k : Fin 10) :
    shapeCast S4x10 v h (ix2 b k) = v (ix3 (0 : Fin 1) b k) :=
  shapeCast_apply v h (ix2 b k) (ix3 (0 : Fin 1) b k)
    (by rewrite [Shape.rowMajor_val_three, Shape.rowMajor_val_two]; show (0 * 4 + b.val) * 10 + k.val = b.val * 10 + k.val; omega)

theorem block_apply (v : FVec Ideal S4x10 .f32) (h : S4x10.ShapeCasts S1x4x10) (b : Fin 4) (k : Fin 10) :
    shapeCast S1x4x10 v h (ix3 (0 : Fin 1) b k) = v (ix2 b k) :=
  shapeCast_apply v h (ix3 (0 : Fin 1) b k) (ix2 b k)
    (by rewrite [Shape.rowMajor_val_three, Shape.rowMajor_val_two]; show b.val * 10 + k.val = (0 * 4 + b.val) * 10 + k.val; omega)

/-- The body's update of a running table held as a block: entry (b, k) grows by the new table's entry (b, k). -/
theorem acc_apply (old : FVec Ideal S1x4x10 .f32) (T : FVec Ideal S4x10 .f32) (h1 : S1x4x10.ShapeCasts S4x10)
    (h2 : S4x10.ShapeCasts S1x4x10) (b : Fin 4) (k : Fin 10) :
    shapeCast S1x4x10 (addf (shapeCast S4x10 old h1) T) h2 (ix3 (0 : Fin 1) b k) = old (ix3 (0 : Fin 1) b k) + T (ix2 b k) := by
  rw [block_apply, addf_apply, unblock_apply]

end Cert.KernelIdeal.KOps

end
-- ==== Proof.KCases.lean ====
/- What one grid point does to the three running tables.

  At a grid point the body holds a tile x0 of predicted labels and a tile x1 of true labels (each [4, 8, 25600]) and
  three running tables as [1, 4, 10] blocks. It adds to entry (b, k) of the first table the number of entries of
  x0's batch b equal to k, to the second the same for x1, to the third the number of positions of batch b where both
  are k (newP_apply, newT_apply, newI_apply). At the first point of a core's run the running tables are reset to zero
  first (zeroP_apply, zeroT_apply, zeroI_apply). outA*_eq and outB*_eq say that this is what each case of the body
  leaves in each output's staging buffer. cat10_j: entry (b, j) of ten [4, 1] columns side by side is column j's entry b.
-/
import proofs.«425035_j62173946577085_3_alg».proof.Proof.Gen.KernelIdeal.Frame
import proofs.«425035_j62173946577085_3_alg».proof.Proof.KOps
import Idealize.ShloMosaic.Lib.Tactic

set_option maxRecDepth 16384

noncomputable section

open scoped BigOperators

namespace Cert.KernelIdeal.KCases

open Cert.KernelIdeal Cert.KernelIdeal.Gen Cert.KernelIdeal.KOps Cert.Hist
open Idealize.ShloMosaic Idealize.ShloMosaic.TcCoe Idealize.ShloMosaic.Tactic Idealize.SL.Sem Idealize.ShloMosaic.ValueIdx

theorem hz3 : (![0, 0, 0] : Fin 3 → Nat) = fun _ => 0 := funext fun a => by fin_cases a <;> rfl

/-! ## Ten [4, 1] columns side by side -/

theorem cat10_0 (v0 v1 v2 v3 v4 v5 v6 v7 v8 v9 : FVec Ideal S4x1 .f32)
    (h : Shape.Concatenates [S4x1, S4x1, S4x1, S4x1, S4x1, S4x1, S4x1, S4x1, S4x1, S4x1] S4x10 1) (b : Fin 4) (k : Fin 10)
    (hk : k.val = 0) :
    concatenate S4x10 1 [⟨S4x1, v0⟩, ⟨S4x1, v1⟩, ⟨S4x1, v2⟩, ⟨S4x1, v3⟩, ⟨S4x1, v4⟩, ⟨S4x1, v5⟩, ⟨S4x1, v6⟩, ⟨S4x1, v7⟩, ⟨S4x1, v8⟩, ⟨S4x1, v9⟩] h (ix2 b k) = v0 (ix2 b (0 : Fin 1)) :=
  concatenate_apply_piece (1 : Fin S4x10.rank) [⟨S4x1, v0⟩, ⟨S4x1, v1⟩, ⟨S4x1, v2⟩, ⟨S4x1, v3⟩, ⟨S4x1, v4⟩, ⟨S4x1, v5⟩, ⟨S4x1, v6⟩, ⟨S4x1, v7⟩, ⟨S4x1, v8⟩, ⟨S4x1, v9⟩] h (ix2 b k) 0 (by show 0 < 10; omega) S4x1 v0 rfl rfl 0 rfl (ix2 b (0 : Fin 1))
    (fun a ha => by match a, ha with | ⟨0, _⟩, _ => rfl | ⟨1, _⟩, ha => exact absurd rfl ha)
    (by show 0 + 0 = k.val; omega)

theorem cat10_1 (v0 v1 v2 v3 v4 v5 v6 v7 v8 v9 : FVec Ideal S4x1 .f32)
    (h : Shape.Concatenates [S4x1, S4x1, S4x1, S4x1, S4x1, S4x1, S4x1, S4x1, S4x1, S4x1] S4x10 1) (b : Fin 4) (k : Fin 10)
    (hk : k.val = 1) :
    concatenate S4x10 1 [⟨S4x1, v0⟩, ⟨S4x1, v1⟩, ⟨S4x1, v2⟩, ⟨S4x1, v3⟩, ⟨S4x1, v4⟩, ⟨S4x1, v5⟩, ⟨S4x1, v6⟩, ⟨S4x1, v7⟩, ⟨S4x1, v8⟩, ⟨S4x1, v9⟩] h (ix2 b k) = v1 (ix2 b (0 : Fin 1)) :=
  concatenate_apply_piece (1 : Fin S4x10.rank) [⟨S4x1, v0⟩, ⟨S4x1, v1⟩, ⟨S4x1, v2⟩, ⟨S4x1, v3⟩, ⟨S4x1, v4⟩, ⟨S4x1, v5⟩, ⟨S4x1, v6⟩, ⟨S4x1, v7⟩, ⟨S4x1, v8⟩, ⟨S4x1, v9⟩] h (ix2 b k) 1 (by show 1 < 10; omega) S4x1 v1 rfl rfl 1 rfl (ix2 b (0 : Fin 1))
    (fun a ha => by match a, ha with | ⟨0, _⟩, _ => rfl | ⟨1, _⟩, ha => exact absurd rfl ha)
    (by show 1 + 0 = k.val; omega)

theorem cat10_2 (v0 v1 v2 v3 v4 v5 v6 v7 v8 v9 : FVec Ideal S4x1 .f32)
    (h : Shape.Concatenates [S4x1, S4x1, S4x1, S4x1, S4x1, S4x1, S4x1, S4x1, S4x1, S4x1] S4x10 1) (b : Fin 4) (k : Fin 10)
    (hk : k.val = 2) :
    concatenate S4x10 1 [⟨S4x1, v0⟩, ⟨S4x1, v1⟩, ⟨S4x1, v2⟩, ⟨S4x1, v3⟩, ⟨S4x1, v4⟩, ⟨S4x1, v5⟩, ⟨S4x1, v6⟩, ⟨S4x1, v7⟩, ⟨S4x1, v8⟩, ⟨S4x1, v9⟩] h (ix2 b k) = v2 (ix2 b (0 : Fin 1)) :=
  concatenate_apply_piece (1 : Fin S4x10.rank) [⟨S4x1, v0⟩, ⟨S4x1, v1⟩, ⟨S4x1, v2⟩, ⟨S4x1, v3⟩, ⟨S4x1, v4⟩, ⟨S4x1, v5⟩, ⟨S4x1, v6⟩, ⟨S4x1, v7⟩, ⟨S4x1, v8⟩, ⟨S4x1, v9⟩] h (ix2 b k) 2 (by show 2 < 10; omega) S4x1 v2 rfl rfl 2 rfl (ix2 b (0 : Fin 1))
    (fun a ha => by match a, ha with | ⟨0, _⟩, _ => rfl | ⟨1, _⟩, ha => exact absurd rfl ha)
    (by show 2 + 0 = k.val; omega)

theorem cat10_3 (v0 v1 v2 v3 v4 v5 v6 v7 v8 v9 : FVec Ideal S4x1 .f32)
    (h : Shape.Concatenates [S4x1, S4x1, S4x1, S4x1, S4x1, S4x1, S4x1, S4x1, S4x1, S4x1] S4x10 1) (b : Fin 4) (k : Fin 10)
    (hk : k.val = 3) :
    concatenate S4x10 1 [⟨S4x1, v0⟩, ⟨S4x1, v1⟩, ⟨S4x1, v2⟩, ⟨S4x1, v3⟩, ⟨S4x1, v4⟩, ⟨S4x1, v5⟩, ⟨S4x1, v6⟩, ⟨S4x1, v7⟩, ⟨S4x1, v8⟩, ⟨S4x1, v9⟩] h (ix2 b k) = v3 (ix2 b (0 : Fin 1)) :=
  concatenate_apply_piece (1 : Fin S4x10.rank) [⟨S4x1, v0⟩, ⟨S4x1, v1⟩, ⟨S4x1, v2⟩, ⟨S4x1, v3⟩, ⟨S4x1, v4⟩, ⟨S4x1, v5⟩, ⟨S4x1, v6⟩, ⟨S4x1, v7⟩, ⟨S4x1, v8⟩, ⟨S4x1, v9⟩] h (ix2 b k) 3 (by show 3 < 10; omega) S4x1 v3 rfl rfl 3 rfl (ix2 b (0 : Fin 1))
    (fun a ha => by match a, ha with | ⟨0, _⟩, _ => rfl | ⟨1, _⟩, ha => exact absurd rfl ha)
    (by show 3 + 0 = k.val; omega)

theorem cat10_4 (v0 v1 v2 v3 v4 v5 v6 v7 v8 v9 : FVec Ideal S4x1 .f32)
    (h : Shape.Concatenates [S4x1, S4x1, S4x1, S4x1, S4x1, S4x1, S4x1, S4x1, S4x1, S4x1] S4x10 1) (b : Fin 4) (k : Fin 10)
    (hk : k.val = 4) :
    concatenate S4x10 1 [⟨S4x1, v0⟩, ⟨S4x1, v1⟩, ⟨S4x1, v2⟩, ⟨S4x1, v3⟩, ⟨S4x1, v4⟩, ⟨S4x1, v5⟩, ⟨S4x1, v6⟩, ⟨S4x1, v7⟩, ⟨S4x1, v8⟩, ⟨S4x1, v9⟩] h (ix2 b k) = v4 (ix2 b (0 : Fin 1)) :=
  concatenate_apply_piece (1 : Fin S4x10.rank) [⟨S4x1, v0⟩, ⟨S4x1, v1⟩, ⟨S4x1, v2⟩, ⟨S4x1, v3⟩, ⟨S4x1, v4⟩, ⟨S4x1, v5⟩, ⟨S4x1, v6⟩, ⟨S4x1, v7⟩, ⟨S4x1, v8⟩, ⟨S4x1, v9⟩] h (ix2 b k) 4 (by show 4 < 10; omega) S4x1 v4 rfl rfl 4 rfl (ix2 b (0 : Fin 1))
    (fun a ha => by match a, ha with | ⟨0, _⟩, _ => rfl | ⟨1, _⟩, ha => exact absurd rfl ha)
    (by show 4 + 0 = k.val; omega)

theorem cat10_5 (v0 v1 v2 v3 v4 v5 v6 v7 v8 v9 : FVec Ideal S4x1 .f32)
    (h : Shape.Concatenates [S4x1, S4x1, S4x1, S4x1, S4x1, S4x1, S4x1, S4x1, S4x1, S4x1] S4x10 1) (b : Fin 4) (k : Fin 10)
    (hk : k.val = 5) :
    concatenate S4x10 1 [⟨S4x1, v0⟩, ⟨S4x1, v1⟩, ⟨S4x1, v2⟩, ⟨S4x1, v3⟩, ⟨S4x1, v4⟩, ⟨S4x1, v5⟩, ⟨S4x1, v6⟩, ⟨S4x1, v7⟩, ⟨S4x1, v8⟩, ⟨S4x1, v9⟩] h (ix2 b k) = v5 (ix2 b (0 : Fin 1)) :=
  concatenate_apply_piece (1 : Fin S4x10.rank) [⟨S4x1, v0⟩, ⟨S4x1, v1⟩, ⟨S4x1, v2⟩, ⟨S4x1, v3⟩, ⟨S4x1, v4⟩, ⟨S4x1, v5⟩, ⟨S4x1, v6⟩, ⟨S4x1, v7⟩, ⟨S4x1, v8⟩, ⟨S4x1, v9⟩] h (ix2 b k) 5 (by show 5 < 10; omega) S4x1 v5 rfl rfl 5 rfl (ix2 b (0 : Fin 1))
    (fun a ha => by match a, ha with | ⟨0, _⟩, _ => rfl | ⟨1, _⟩, ha => exact absurd rfl ha)
    (by show 5 + 0 = k.val; omega)

theorem cat10_6 (v0 v1 v2 v3 v4 v5 v6 v7 v8 v9 : FVec Ideal S4x1 .f32)
    (h : Shape.Concatenates [S4x1, S4x1, S4x1, S4x1, S4x1, S4x1, S4x1, S4x1, S4x1, S4x1] S4x10 1) (b : Fin 4) (k : Fin 10)
    (hk : k.val = 6) :
    concatenate S4x10 1 [⟨S4x1, v0⟩, ⟨S4x1, v1⟩, ⟨S4x1, v2⟩, ⟨S4x1, v3⟩, ⟨S4x1, v4⟩, ⟨S4x1, v5⟩, ⟨S4x1, v6⟩, ⟨S4x1, v7⟩, ⟨S4x1, v8⟩, ⟨S4x1, v9⟩] h (ix2 b k) = v6 (ix2 b (0 : Fin 1)) :=
  concatenate_apply_piece (1 : Fin S4x10.rank) [⟨S4x1, v0⟩, ⟨S4x1, v1⟩, ⟨S4x1, v2⟩, ⟨S4x1, v3⟩, ⟨S4x1, v4⟩, ⟨S4x1, v5⟩, ⟨S4x1, v6⟩, ⟨S4x1, v7⟩, ⟨S4x1, v8⟩, ⟨S4x1, v9⟩] h (ix2 b k) 6 (by show 6 < 10; omega) S4x1 v6 rfl rfl 6 rfl (ix2 b (0 : Fin 1))
    (fun a ha => by match a, ha with | ⟨0, _⟩, _ => rfl | ⟨1, _⟩, ha => exact absurd rfl ha)
    (by show 6 + 0 = k.val; omega)

theorem cat10_7 (v0 v1 v2 v3 v4 v5 v6 v7 v8 v9 : FVec Ideal S4x1 .f32)
    (h : Shape.Concatenates [S4x1, S4x1, S4x1, S4x1, S4x1, S4x1, S4x1, S4x1, S4x1, S4x1] S4x10 1) (b : Fin 4) (k : Fin 10)
    (hk : k.val = 7) :
    concatenate S4x10 1 [⟨S4x1, v0⟩, ⟨S4x1, v1⟩, ⟨S4x1, v2⟩, ⟨S4x1, v3⟩, ⟨S4x1, v4⟩, ⟨S4x1, v5⟩, ⟨S4x1, v6⟩, ⟨S4x1, v7⟩, ⟨S4x1, v8⟩, ⟨S4x1, v9⟩] h (ix2 b k) = v7 (ix2 b (0 : Fin 1)) :=
  concatenate_apply_piece (1 : Fin S4x10.rank) [⟨S4x1, v0⟩, ⟨S4x1, v1⟩, ⟨S4x1, v2⟩, ⟨S4x1, v3⟩, ⟨S4x1, v4⟩, ⟨S4x1, v5⟩, ⟨S4x1, v6⟩, ⟨S4x1, v7⟩, ⟨S4x1, v8⟩, ⟨S4x1, v9⟩] h (ix2 b k) 7 (by show 7 < 10; omega) S4x1 v7 rfl rfl 7 rfl (ix2 b (0 : Fin 1))
    (fun a ha => by match a, ha with | ⟨0, _⟩, _ => rfl | ⟨1, _⟩, ha => exact absurd rfl ha)
    (by show 7 + 0 = k.val; omega)

theorem cat10_8 (v0 v1 v2 v3 v4 v5 v6 v7 v8 v9 : FVec Ideal S4x1 .f32)
    (h : Shape.Concatenates [S4x1, S4x1, S4x1, S4x1, S4x1, S4x1, S4x1, S4x1, S4x1, S4x1] S4x10 1) (b : Fin 4) (k : Fin 10)
    (hk : k.val = 8) :
    concatenate S4x10 1 [⟨S4x1, v0⟩, ⟨S4x1, v1⟩, ⟨S4x1, v2⟩, ⟨S4x1, v3⟩, ⟨S4x1, v4⟩, ⟨S4x1, v5⟩, ⟨S4x1, v6⟩, ⟨S4x1, v7⟩, ⟨S4x1, v8⟩, ⟨S4x1, v9⟩] h (ix2 b k) = v8 (ix2 b (0 : Fin 1)) :=
  concatenate_apply_piece (1 : Fin S4x10.rank) [⟨S4x1, v0⟩, ⟨S4x1, v1⟩, ⟨S4x1, v2⟩, ⟨S4x1, v3⟩, ⟨S4x1, v4⟩, ⟨S4x1, v5⟩, ⟨S4x1, v6⟩, ⟨S4x1, v7⟩, ⟨S4x1, v8⟩, ⟨S4x1, v9⟩] h (ix2 b k) 8 (by show 8 < 10; omega) S4x1 v8 rfl rfl 8 rfl (ix2 b (0 : Fin 1))
    (fun a ha => by match a, ha with | ⟨0, _⟩, _ => rfl | ⟨1, _⟩, ha => exact absurd rfl ha)
    (by show 8 + 0 = k.val; omega)

theorem cat10_9 (v0 v1 v2 v3 v4 v5 v6 v7 v8 v9 : FVec Ideal S4x1 .f32)
    (h : Shape.Concatenates [S4x1, S4x1, S4x1, S4x1, S4x1, S4x1, S4x1, S4x1, S4x1, S4x1] S4x10 1) (b : Fin 4) (k : Fin 10)
    (hk : k.val = 9) :
    concatenate S4x10 1 [⟨S4x1, v0⟩, ⟨S4x1, v1⟩, ⟨S4x1, v2⟩, ⟨S4x1, v3⟩, ⟨S4x1, v4⟩, ⟨S4x1, v5⟩, ⟨S4x1, v6⟩, ⟨S4x1, v7⟩, ⟨S4x1, v8⟩, ⟨S4x1, v9⟩] h (ix2 b k) = v9 (ix2 b (0 : Fin 1)) :=
  concatenate_apply_piece (1 : Fin S4x10.rank) [⟨S4x1, v0⟩, ⟨S4x1, v1⟩, ⟨S4x1, v2⟩, ⟨S4x1, v3⟩, ⟨S4x1, v4⟩, ⟨S4x1, v5⟩, ⟨S4x1, v6⟩, ⟨S4x1, v7⟩, ⟨S4x1, v8⟩, ⟨S4x1, v9⟩] h (ix2 b k) 9 (by show 9 < 10; omega) S4x1 v9 rfl rfl 9 rfl (ix2 b (0 : Fin 1))
    (fun a ha => by match a, ha with | ⟨0, _⟩, _ => rfl | ⟨1, _⟩, ha => exact absurd rfl ha)
    (by show 9 + 0 = k.val; omega)

section Generic
variable {F : FTy → Type} [FloatOps F]

/-- The first table after a point: the ten class columns of the tile x0 added to the table it held. -/
def newP (x0 : Vec F S4x8x25600 .i32) (old : Vec F S1x4x10 .f32) : Vec F S1x4x10 .f32 :=
  k0_pay63 (k0_pay9 x0) (k0_pay14 (k0_pay12 x0)) (k0_pay20 (k0_pay5 x0)) (k0_pay26 (k0_pay5 x0)) (k0_pay33 (k0_pay32 (k0_pay5 x0))) (k0_pay38 (k0_pay5 x0)) (k0_pay43 (k0_pay5 x0)) (k0_pay49 (k0_pay5 x0)) (k0_pay55 (k0_pay5 x0)) (k0_pay58 (k0_pay5 x0)) old

/-- The second table after a point: the ten class columns of the tile x1 added. -/
def newT (x1 : Vec F S4x8x25600 .i32) (old : Vec F S1x4x10 .f32) : Vec F S1x4x10 .f32 :=
  k0_pay64 (k0_pay10 x1) (k0_pay15 (k0_pay6 x1)) (k0_pay22 (k0_pay21 (k0_pay6 x1))) (k0_pay27 (k0_pay6 x1)) (k0_pay34 (k0_pay30 (k0_pay6 x1))) (k0_pay39 (k0_pay6 x1)) (k0_pay44 (k0_pay6 x1)) (k0_pay51 (k0_pay50 (k0_pay6 x1))) (k0_pay56 (k0_pay6 x1)) (k0_pay60 (k0_pay6 x1)) old

/-- The third table after a point: the ten columns of the products of the two tiles' masks added. -/
def newI (x0 x1 : Vec F S4x8x25600 .i32) (old : Vec F S1x4x10 .f32) : Vec F S1x4x10 .f32 :=
  k0_pay1 (k0_pay11 x0 x1) (k0_pay16 (k0_pay6 x1) (k0_pay12 x0)) (k0_pay23 (k0_pay19 (k0_pay5 x0) (k0_pay6 x1))) (k0_pay28 (k0_pay5 x0) (k0_pay6 x1)) (k0_pay35 (k0_pay31 (k0_pay5 x0) (k0_pay6 x1))) (k0_pay40 (k0_pay5 x0) (k0_pay6 x1)) (k0_pay45 (k0_pay5 x0) (k0_pay6 x1)) (k0_pay52 (k0_pay48 (k0_pay5 x0) (k0_pay6 x1))) (k0_pay57 (k0_pay5 x0) (k0_pay6 x1)) (k0_pay62 (k0_pay59 (k0_pay5 x0)) (k0_pay60 (k0_pay6 x1))) old

theorem outA2_eq (c : Dev nD) (i : grid0.Coords) (arg2 : Memref sig .tc .vmem S4x8x25600 .i32) (harg2 : arg2.IsWhole) (arg3 : Memref sig .tc .vmem S4x8x25600 .i32) (harg3 : arg3.IsWhole) (arg4 : Memref sig .tc .vmem S1x4x10 .f32) (harg4 : arg4.IsWhole) (arg5 : Memref sig .tc .vmem S1x4x10 .f32) (harg5 : arg5.IsWhole) (arg6 : Memref sig .tc .vmem S1x4x10 .f32) (harg6 : arg6.IsWhole) (hc0 : cond0_0 i) (x0 x1 : Vec F S4x8x25600 .i32) :
    out0_A_2 c i arg2 harg2 arg3 harg3 arg4 harg4 arg5 harg5 arg6 harg6 hc0 x0 x1 = newP x0 k0_pay2 := by
  unfold out0_A_2
  rw [View.read_writes_eq_canon _ _ _ (cover0_A_2 c i arg2 harg2 arg3 harg3 arg4 harg4 arg5 harg5 arg6 harg6 hc0 x0 x1)]
  unfold kernelRun0_A
  dsimp only
  sl_unfold_words
  rw [View.canon_cons_unit_zero (S := S1x4x10) hz3, View.readCov_unit_zero (S := S1x4x10) _ hz3]
  simp only [View.readAt_eq_ld, harg2.read_unread, harg3.read_unread, View.ld_unit_zero (S := S1x4x10) hz3, View.ld_unit_zero (S := S4x8x25600) hz3]
  rfl

theorem outA3_eq (c : Dev nD) (i : grid0.Coords) (arg2 : Memref sig .tc .vmem S4x8x25600 .i32) (harg2 : arg2.IsWhole) (arg3 : Memref sig .tc .vmem S4x8x25600 .i32) (harg3 : arg3.IsWhole) (arg4 : Memref sig .tc .vmem S1x4x10 .f32) (harg4 : arg4.IsWhole) (arg5 : Memref sig .tc .vmem S1x4x10 .f32) (harg5 : arg5.IsWhole) (arg6 : Memref sig .tc .vmem S1x4x10 .f32) (harg6 : arg6.IsWhole) (hc0 : cond0_0 i) (x0 x1 : Vec F S4x8x25600 .i32) :
    out0_A_3 c i arg2 harg2 arg3 harg3 arg4 harg4 arg5 harg5 arg6 harg6 hc0 x0 x1 = newT x1 k0_pay3 := by
  unfold out0_A_3
  rw [View.read_writes_eq_canon _ _ _ (cover0_A_3 c i arg2 harg2 arg3 harg3 arg4 harg4 arg5 harg5 arg6 harg6 hc0 x0 x1)]
  unfold kernelRun0_A
  dsimp only
  sl_unfold_words
  rw [View.canon_cons_unit_zero (S := S1x4x10) hz3, View.readCov_unit_zero (S := S1x4x10) _ hz3]
  simp only [View.readAt_eq_ld, harg2.read_unread, harg3.read_unread, View.ld_unit_zero (S := S1x4x10) hz3, View.ld_unit_zero (S := S4x8x25600) hz3]
  rfl

theorem outA4_eq (c : Dev nD) (i : grid0.Coords) (arg2 : Memref sig .tc .vmem S4x8x25600 .i32) (harg2 : arg2.IsWhole) (arg3 : Memref sig .tc .vmem S4x8x25600 .i32) (harg3 : arg3.IsWhole) (arg4 : Memref sig .tc .vmem S1x4x10 .f32) (harg4 : arg4.IsWhole) (arg5 : Memref sig .tc .vmem S1x4x10 .f32) (harg5 : arg5.IsWhole) (arg6 : Memref sig .tc .vmem S1x4x10 .f32) (harg6 : arg6.IsWhole) (hc0 : cond0_0 i) (x0 x1 : Vec F S4x8x25600 .i32) :
    out0_A_4 c i arg2 harg2 arg3 harg3 arg4 harg4 arg5 harg5 arg6 harg6 hc0 x0 x1 = newI x0 x1 k0_pay4 := by
  unfold out0_A_4
  rw [View.read_writes_eq_canon _ _ _ (cover0_A_4 c i arg2 harg2 arg3 harg3 arg4 harg4 arg5 harg5 arg6 harg6 hc0 x0 x1)]
  unfold kernelRun0_A
  dsimp only
  sl_unfold_words
  rw [View.canon_cons_unit_zero (S := S1x4x10) hz3, View.readCov_unit_zero (S := S1x4x10) _ hz3]
  simp only [View.readAt_eq_ld, harg2.read_unread, harg3.read_unread, View.ld_unit_zero (S := S1x4x10) hz3, View.ld_unit_zero (S := S4x8x25600) hz3]
  rfl

theorem outB2_eq (c : Dev nD) (i : grid0.Coords) (arg2 : Memref sig .tc .vmem S4x8x25600 .i32) (harg2 : arg2.IsWhole) (arg3 : Memref sig .tc .vmem S4x8x25600 .i32) (harg3 : arg3.IsWhole) (arg4 : Memref sig .tc .vmem S1x4x10 .f32) (harg4 : arg4.IsWhole) (arg5 : Memref sig .tc .vmem S1x4x10 .f32) (harg5 : arg5.IsWhole) (arg6 : Memref sig .tc .vmem S1x4x10 .f32) (harg6 : arg6.IsWhole) (hc0 : ¬cond0_0 i) (x0 x1 : Vec F S4x8x25600 .i32) (xo2 xo3 xo4 : Vec F S1x4x10 .f32) :
    out0_B_2 c i arg2 harg2 arg3 harg3 arg4 harg4 arg5 harg5 arg6 harg6 hc0 x0 x1 xo2 xo3 xo4 = newP x0 xo2 := by
  unfold out0_B_2
  rw [View.read_writes_eq_canon _ _ _ (cover0_B_2 c i arg2 harg2 arg3 harg3 arg4 harg4 arg5 harg5 arg6 harg6 hc0 x0 x1 xo2 xo3 xo4)]
  unfold kernelRun0_B
  dsimp only
  sl_unfold_words
  rw [View.canon_unit_zero hz3]
  simp only [View.readAt_eq_ld, harg2.read_unread, harg3.read_unread, harg4.read_unread, harg5.read_unread, harg6.read_unread, View.ld_unit_zero (S := S1x4x10) hz3, View.ld_unit_zero (S := S4x8x25600) hz3]
  rfl

theorem outB3_eq (c : Dev nD) (i : grid0.Coords) (arg2 : Memref sig .tc .vmem S4x8x25600 .i32) (harg2 : arg2.IsWhole) (arg3 : Memref sig .tc .vmem S4x8x25600 .i32) (harg3 : arg3.IsWhole) (arg4 : Memref sig .tc .vmem S1x4x10 .f32) (harg4 : arg4.IsWhole) (arg5 : Memref sig .tc .vmem S1x4x10 .f32) (harg5 : arg5.IsWhole) (arg6 : Memref sig .tc .vmem S1x4x10 .f32) (harg6 : arg6.IsWhole) (hc0 : ¬cond0_0 i) (x0 x1 : Vec F S4x8x25600 .i32) (xo2 xo3 xo4 : Vec F S1x4x10 .f32) :
    out0_B_3 c i arg2 harg2 arg3 harg3 arg4 harg4 arg5 harg5 arg6 harg6 hc0 x0 x1 xo2 xo3 xo4 = newT x1 xo3 := by
  unfold out0_B_3
  rw [View.read_writes_eq_canon _ _ _ (cover0_B_3 c i arg2 harg2 arg3 harg3 arg4 harg4 arg5 harg5 arg6 harg6 hc0 x0 x1 xo2 xo3 xo4)]
  unfold kernelRun0_B
  dsimp only
  sl_unfold_words
  rw [View.canon_unit_zero hz3]
  simp only [View.readAt_eq_ld, harg2.read_unread, harg3.read_unread, harg4.read_unread, harg5.read_unread, harg6.read_unread, View.ld_unit_zero (S := S1x4x10) hz3, View.ld_unit_zero (S := S4x8x25600) hz3]
  rfl

theorem outB4_eq (c : Dev nD) (i : grid0.Coords) (arg2 : Memref sig .tc .vmem S4x8x25600 .i32) (harg2 : arg2.IsWhole) (arg3 : Memref sig .tc .vmem S4x8x25600 .i32) (harg3 : arg3.IsWhole) (arg4 : Memref sig .tc .vmem S1x4x10 .f32) (harg4 : arg4.IsWhole) (arg5 : Memref sig .tc .vmem S1x4x10 .f32) (harg5 : arg5.IsWhole) (arg6 : Memref sig .tc .vmem S1x4x10 .f32) (harg6 : arg6.IsWhole) (hc0 : ¬cond0_0 i) (x0 x1 : Vec F S4x8x25600 .i32) (xo2 xo3 xo4 : Vec F S1x4x10 .f32) :
    out0_B_4 c i arg2 harg2 arg3 harg3 arg4 harg4 arg5 harg5 arg6 harg6 hc0 x0 x1 xo2 xo3 xo4 = newI x0 x1 xo4 := by
  unfold out0_B_4
  rw [View.read_writes_eq_canon _ _ _ (cover0_B_4 c i arg2 harg2 arg3 harg3 arg4 harg4 arg5 harg5 arg6 harg6 hc0 x0 x1 xo2 xo3 xo4)]
  unfold kernelRun0_B
  dsimp only
  sl_unfold_words
  rw [View.canon_unit_zero hz3]
  simp only [View.readAt_eq_ld, harg2.read_unread, harg3.read_unread, harg4.read_unread, harg5.read_unread, harg6.read_unread, View.ld_unit_zero (S := S1x4x10) hz3, View.ld_unit_zero (S := S4x8x25600) hz3]
  rfl

end Generic

/-! ## Read at an entry, at the ideal instance -/

theorem zeroP_apply (j : S1x4x10.Idx) : (k0_pay2 (F := Ideal)) j = 0 := by
  obtain ⟨a, b, k, rfl⟩ : ∃ (a : Fin 1) (b : Fin 4) (k : Fin 10), j = ix3 a b k := ⟨j 0, j 1, j 2, eq_ix3 j⟩
  obtain rfl : a = 0 := Subsingleton.elim _ _
  unfold k0_pay2
  rw [block_apply]
  exact Ideal.ofBits_zero_f32

theorem zeroT_apply (j : S1x4x10.Idx) : (k0_pay3 (F := Ideal)) j = 0 := by
  obtain ⟨a, b, k, rfl⟩ : ∃ (a : Fin 1) (b : Fin 4) (k : Fin 10), j = ix3 a b k := ⟨j 0, j 1, j 2, eq_ix3 j⟩
  obtain rfl : a = 0 := Subsingleton.elim _ _
  unfold k0_pay3
  rw [block_apply]
  exact Ideal.ofBits_zero_f32

theorem zeroI_apply (j : S1x4x10.Idx) : (k0_pay4 (F := Ideal)) j = 0 := by
  obtain ⟨a, b, k, rfl⟩ : ∃ (a : Fin 1) (b : Fin 4) (k : Fin 10), j = ix3 a b k := ⟨j 0, j 1, j 2, eq_ix3 j⟩
  obtain rfl : a = 0 := Subsingleton.elim _ _
  unfold k0_pay4
  rw [block_apply]
  exact Ideal.ofBits_zero_f32

/-- Entry (b, k) of the first table grows by the number of entries of x0's batch b that are class k. -/
theorem newP_apply (x0 : Vec Ideal S4x8x25600 .i32) (old : Vec Ideal S1x4x10 .f32) (b : Fin 4) (k : Fin 10) :
    newP x0 old (ix3 (0 : Fin 1) b k)
      = old (ix3 (0 : Fin 1) b k) + ∑ l : Fin 25600, ∑ s : Fin 8, isC (x0 (ix3 b s l)) k.val := by
  unfold newP k0_pay63
  (try dsimp only)
  rw [acc_apply]
  refine congrArg (old (ix3 (0 : Fin 1) b k) + ·) ?_
  match k with
  | ⟨0, _⟩ =>
    refine (cat10_0 _ _ _ _ _ _ _ _ _ _ _ b _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, shapeCast_self]
    refine (col_apply _ b _ _ _ _ _ _ _).trans ?_
    refine Finset.sum_congr rfl fun l _ => Finset.sum_congr rfl fun s _ => ?_
    exact mask_apply _ _ _ _
  | ⟨1, _⟩ =>
    refine (cat10_1 _ _ _ _ _ _ _ _ _ _ _ b _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, shapeCast_self]
    refine (col_apply _ b _ _ _ _ _ _ _).trans ?_
    refine Finset.sum_congr rfl fun l _ => Finset.sum_congr rfl fun s _ => ?_
    exact mask_apply _ _ _ _
  | ⟨2, _⟩ =>
    refine (cat10_2 _ _ _ _ _ _ _ _ _ _ _ b _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, shapeCast_self]
    refine (col_apply _ b _ _ _ _ _ _ _).trans ?_
    refine Finset.sum_congr rfl fun l _ => Finset.sum_congr rfl fun s _ => ?_
    exact mask_apply _ _ _ _
  | ⟨3, _⟩ =>
    refine (cat10_3 _ _ _ _ _ _ _ _ _ _ _ b _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, shapeCast_self]
    refine (col_apply _ b _ _ _ _ _ _ _).trans ?_
    refine Finset.sum_congr rfl fun l _ => Finset.sum_congr rfl fun s _ => ?_
    exact mask_apply _ _ _ _
  | ⟨4, _⟩ =>
    refine (cat10_4 _ _ _ _ _ _ _ _ _ _ _ b _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, shapeCast_self]
    refine (col_apply _ b _ _ _ _ _ _ _).trans ?_
    refine Finset.sum_congr rfl fun l _ => Finset.sum_congr rfl fun s _ => ?_
    exact mask_apply _ _ _ _
  | ⟨5, _⟩ =>
    refine (cat10_5 _ _ _ _ _ _ _ _ _ _ _ b _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, shapeCast_self]
    refine (col_apply _ b _ _ _ _ _ _ _).trans ?_
    refine Finset.sum_congr rfl fun l _ => Finset.sum_congr rfl fun s _ => ?_
    exact mask_apply _ _ _ _
  | ⟨6, _⟩ =>
    refine (cat10_6 _ _ _ _ _ _ _ _ _ _ _ b _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, shapeCast_self]
    refine (col_apply _ b _ _ _ _ _ _ _).trans ?_
    refine Finset.sum_congr rfl fun l _ => Finset.sum_congr rfl fun s _ => ?_
    exact mask_apply _ _ _ _
  | ⟨7, _⟩ =>
    refine (cat10_7 _ _ _ _ _ _ _ _ _ _ _ b _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, shapeCast_self]
    refine (col_apply _ b _ _ _ _ _ _ _).trans ?_
    refine Finset.sum_congr rfl fun l _ => Finset.sum_congr rfl fun s _ => ?_
    exact mask_apply _ _ _ _
  | ⟨8, _⟩ =>
    refine (cat10_8 _ _ _ _ _ _ _ _ _ _ _ b _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, shapeCast_self]
    refine (col_apply _ b _ _ _ _ _ _ _).trans ?_
    refine Finset.sum_congr rfl fun l _ => Finset.sum_congr rfl fun s _ => ?_
    exact mask_apply _ _ _ _
  | ⟨9, _⟩ =>
    refine (cat10_9 _ _ _ _ _ _ _ _ _ _ _ b _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, shapeCast_self]
    refine (col_apply _ b _ _ _ _ _ _ _).trans ?_
    refine Finset.sum_congr rfl fun l _ => Finset.sum_congr rfl fun s _ => ?_
    exact mask_apply _ _ _ _

/-- Entry (b, k) of the second table grows by the number of entries of x1's batch b that are class k. -/
theorem newT_apply (x1 : Vec Ideal S4x8x25600 .i32) (old : Vec Ideal S1x4x10 .f32) (b : Fin 4) (k : Fin 10) :
    newT x1 old (ix3 (0 : Fin 1) b k)
      = old (ix3 (0 : Fin 1) b k) + ∑ l : Fin 25600, ∑ s : Fin 8, isC (x1 (ix3 b s l)) k.val := by
  unfold newT k0_pay64
  (try dsimp only)
  rw [acc_apply]
  refine congrArg (old (ix3 (0 : Fin 1) b k) + ·) ?_
  match k with
  | ⟨0, _⟩ =>
    refine (cat10_0 _ _ _ _ _ _ _ _ _ _ _ b _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, shapeCast_self]
    refine (col_apply _ b _ _ _ _ _ _ _).trans ?_
    refine Finset.sum_congr rfl fun l _ => Finset.sum_congr rfl fun s _ => ?_
    exact mask_apply _ _ _ _
  | ⟨1, _⟩ =>
    refine (cat10_1 _ _ _ _ _ _ _ _ _ _ _ b _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, shapeCast_self]
    refine (col_apply _ b _ _ _ _ _ _ _).trans ?_
    refine Finset.sum_congr rfl fun l _ => Finset.sum_congr rfl fun s _ => ?_
    exact mask_apply _ _ _ _
  | ⟨2, _⟩ =>
    refine (cat10_2 _ _ _ _ _ _ _ _ _ _ _ b _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, shapeCast_self]
    refine (col_apply _ b _ _ _ _ _ _ _).trans ?_
    refine Finset.sum_congr rfl fun l _ => Finset.sum_congr rfl fun s _ => ?_
    exact mask_apply _ _ _ _
  | ⟨3, _⟩ =>
    refine (cat10_3 _ _ _ _ _ _ _ _ _ _ _ b _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, shapeCast_self]
    refine (col_apply _ b _ _ _ _ _ _ _).trans ?_
    refine Finset.sum_congr rfl fun l _ => Finset.sum_congr rfl fun s _ => ?_
    exact mask_apply _ _ _ _
  | ⟨4, _⟩ =>
    refine (cat10_4 _ _ _ _ _ _ _ _ _ _ _ b _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, shapeCast_self]
    refine (col_apply _ b _ _ _ _ _ _ _).trans ?_
    refine Finset.sum_congr rfl fun l _ => Finset.sum_congr rfl fun s _ => ?_
    exact mask_apply _ _ _ _
  | ⟨5, _⟩ =>
    refine (cat10_5 _ _ _ _ _ _ _ _ _ _ _ b _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, shapeCast_self]
    refine (col_apply _ b _ _ _ _ _ _ _).trans ?_
    refine Finset.sum_congr rfl fun l _ => Finset.sum_congr rfl fun s _ => ?_
    exact mask_apply _ _ _ _
  | ⟨6, _⟩ =>
    refine (cat10_6 _ _ _ _ _ _ _ _ _ _ _ b _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, shapeCast_self]
    refine (col_apply _ b _ _ _ _ _ _ _).trans ?_
    refine Finset.sum_congr rfl fun l _ => Finset.sum_congr rfl fun s _ => ?_
    exact mask_apply _ _ _ _
  | ⟨7, _⟩ =>
    refine (cat10_7 _ _ _ _ _ _ _ _ _ _ _ b _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, shapeCast_self]
    refine (col_apply _ b _ _ _ _ _ _ _).trans ?_
    refine Finset.sum_congr rfl fun l _ => Finset.sum_congr rfl fun s _ => ?_
    exact mask_apply _ _ _ _
  | ⟨8, _⟩ =>
    refine (cat10_8 _ _ _ _ _ _ _ _ _ _ _ b _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, shapeCast_self]
    refine (col_apply _ b _ _ _ _ _ _ _).trans ?_
    refine Finset.sum_congr rfl fun l _ => Finset.sum_congr rfl fun s _ => ?_
    exact mask_apply _ _ _ _
  | ⟨9, _⟩ =>
    refine (cat10_9 _ _ _ _ _ _ _ _ _ _ _ b _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, shapeCast_self]
    refine (col_apply _ b _ _ _ _ _ _ _).trans ?_
    refine Finset.sum_congr rfl fun l _ => Finset.sum_congr rfl fun s _ => ?_
    exact mask_apply _ _ _ _

/-- Entry (b, k) of the third table grows by the number of positions of batch b where x0 and x1 are both class k. -/
theorem newI_apply (x0 x1 : Vec Ideal S4x8x25600 .i32) (old : Vec Ideal S1x4x10 .f32) (b : Fin 4) (k : Fin 10) :
    newI x0 x1 old (ix3 (0 : Fin 1) b k)
      = old (ix3 (0 : Fin 1) b k)
        + ∑ l : Fin 25600, ∑ s : Fin 8, isC (x0 (ix3 b s l)) k.val * isC (x1 (ix3 b s l)) k.val := by
  unfold newI k0_pay1
  (try dsimp only)
  rw [acc_apply]
  refine congrArg (old (ix3 (0 : Fin 1) b k) + ·) ?_
  match k with
  | ⟨0, _⟩ =>
    refine (cat10_0 _ _ _ _ _ _ _ _ _ _ _ b _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, shapeCast_self]
    refine (col_apply _ b _ _ _ _ _ _ _).trans ?_
    refine Finset.sum_congr rfl fun l _ => Finset.sum_congr rfl fun s _ => ?_
    exact congrArg₂ (· * ·) (mask_apply _ _ _ _) (mask_apply _ _ _ _)
  | ⟨1, _⟩ =>
    refine (cat10_1 _ _ _ _ _ _ _ _ _ _ _ b _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, shapeCast_self]
    refine (col_apply _ b _ _ _ _ _ _ _).trans ?_
    refine Finset.sum_congr rfl fun l _ => Finset.sum_congr rfl fun s _ => ?_
    exact congrArg₂ (· * ·) (mask_apply _ _ _ _) (mask_apply _ _ _ _)
  | ⟨2, _⟩ =>
    refine (cat10_2 _ _ _ _ _ _ _ _ _ _ _ b _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, shapeCast_self]
    refine (col_apply _ b _ _ _ _ _ _ _).trans ?_
    refine Finset.sum_congr rfl fun l _ => Finset.sum_congr rfl fun s _ => ?_
    exact congrArg₂ (· * ·) (mask_apply _ _ _ _) (mask_apply _ _ _ _)
  | ⟨3, _⟩ =>
    refine (cat10_3 _ _ _ _ _ _ _ _ _ _ _ b _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, shapeCast_self]
    refine (col_apply _ b _ _ _ _ _ _ _).trans ?_
    refine Finset.sum_congr rfl fun l _ => Finset.sum_congr rfl fun s _ => ?_
    exact congrArg₂ (· * ·) (mask_apply _ _ _ _) (mask_apply _ _ _ _)
  | ⟨4, _⟩ =>
    refine (cat10_4 _ _ _ _ _ _ _ _ _ _ _ b _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, shapeCast_self]
    refine (col_apply _ b _ _ _ _ _ _ _).trans ?_
    refine Finset.sum_congr rfl fun l _ => Finset.sum_congr rfl fun s _ => ?_
    exact congrArg₂ (· * ·) (mask_apply _ _ _ _) (mask_apply _ _ _ _)
  | ⟨5, _⟩ =>
    refine (cat10_5 _ _ _ _ _ _ _ _ _ _ _ b _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, shapeCast_self]
    refine (col_apply _ b _ _ _ _ _ _ _).trans ?_
    refine Finset.sum_congr rfl fun l _ => Finset.sum_congr rfl fun s _ => ?_
    exact congrArg₂ (· * ·) (mask_apply _ _ _ _) (mask_apply _ _ _ _)
  | ⟨6, _⟩ =>
    refine (cat10_6 _ _ _ _ _ _ _ _ _ _ _ b _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, shapeCast_self]
    refine (col_apply _ b _ _ _ _ _ _ _).trans ?_
    refine Finset.sum_congr rfl fun l _ => Finset.sum_congr rfl fun s _ => ?_
    exact congrArg₂ (· * ·) (mask_apply _ _ _ _) (mask_apply _ _ _ _)
  | ⟨7, _⟩ =>
    refine (cat10_7 _ _ _ _ _ _ _ _ _ _ _ b _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, shapeCast_self]
    refine (col_apply _ b _ _ _ _ _ _ _).trans ?_
    refine Finset.sum_congr rfl fun l _ => Finset.sum_congr rfl fun s _ => ?_
    exact congrArg₂ (· * ·) (mask_apply _ _ _ _) (mask_apply _ _ _ _)
  | ⟨8, _⟩ =>
    refine (cat10_8 _ _ _ _ _ _ _ _ _ _ _ b _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, shapeCast_self]
    refine (col_apply _ b _ _ _ _ _ _ _).trans ?_
    refine Finset.sum_congr rfl fun l _ => Finset.sum_congr rfl fun s _ => ?_
    exact congrArg₂ (· * ·) (mask_apply _ _ _ _) (mask_apply _ _ _ _)
  | ⟨9, _⟩ =>
    refine (cat10_9 _ _ _ _ _ _ _ _ _ _ _ b _ rfl).trans ?_
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, shapeCast_self]
    refine (col_apply _ b _ _ _ _ _ _ _).trans ?_
    refine Finset.sum_congr rfl fun l _ => Finset.sum_congr rfl fun s _ => ?_
    exact congrArg₂ (· * ·) (mask_apply _ _ _ _) (mask_apply _ _ _ _)

end Cert.KernelIdeal.KCases

end
-- ==== Proof.KBlock.lean ====
import proofs.«425035_j62173946577085_3_alg».proof.Defs
import proofs.«425035_j62173946577085_3_alg».proof.Proof.Gen.KernelIdeal.Frame
import proofs.«425035_j62173946577085_3_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.KBlock

open Cert.KernelIdeal Cert.KernelIdeal.Gen Cert.Hist
open Idealize.ShloMosaic Idealize.ShloMosaic.TcCoe Idealize.SL.Sem Idealize.ShloMosaic.ValueIdx

variable (m : (ℓ : Loc nD τ sig) → Buf (Elt Ideal) ℓ)

/-- Before the region the host reshapes the volume of predicted labels [4, 1, 160, 160, 160] to [4, 160, 25600]:
    the array window 0 reads is that reshape of the argument. -/
theorem V_v0 (c : Dev nD) :
    (V m c main_v0 : S4x160x25600.Idx → BitVec 32)
      = shapeCast S4x160x25600 (m ((c.tc : Thread nD τ).loc main_arg0)) Facts₀.shapeCasts_S4x1x160x160x160_S4x160x25600 := by
  show StableHlo.after hostOps0 (fun b => m (c, b)) (Proc.devRef .tc main_v0) = _
  open Idealize.ShloMosaic.StableHlo in after_results
  rfl

/-- The same for the volume of true labels, which window 1 reads. -/
theorem V_v1 (c : Dev nD) :
    (V m c main_v1 : S4x160x25600.Idx → BitVec 32)
      = shapeCast S4x160x25600 (m ((c.tc : Thread nD τ).loc main_arg1)) Facts₀.shapeCasts_S4x1x160x160x160_S4x160x25600 := by
  show StableHlo.after hostOps0 (fun b => m (c, b)) (Proc.devRef .tc main_v1) = _
  open Idealize.ShloMosaic.StableHlo in after_results
  rfl

/-- The tile of predicted labels the body holds at grid point t: its entry (b, s, l) is the volume's voxel number
    b · 4096000 + (8 t + s) · 25600 + l (batch b, depth slice 8 t + s, position l in the slice). -/
theorem iblk0_apply (c : Dev nD) (t : Fin cfg0.N) (b : Fin 4) (s : Fin 8) (l : Fin 25600) :
    (iblk m c 0 t : Vec Ideal S4x8x25600 .i32) (ix3 b s l)
      = m ((c.tc : Thread nD τ).loc main_arg0) (vox (b.val * 4096000 + ((t.val * 8 + s.val) * 25600 + l.val))) := by
  -- The window's block index at grid point t is (0, t, 0), decided once over the 20 points.
  have hi := (by decide +kernel : ∀ t : Fin grid0.N,
    win0_0.index t 0 = 0 ∧ win0_0.index t (1 : Fin 3) = t.val ∧ win0_0.index t 2 = 0) t
  have ht : t.val < 20 := lt_of_lt_of_eq t.isLt (show cfg0.N = 20 from N_0)
  unfold iblk
  rw [View.read_apply]
  show V m c main_v0 _ = _
  -- A reshape keeps the row-major number: the two positions are compared as sums of products.
  refine (congrFun (V_v0 m c) _).trans (shapeCast_apply _ _ _ _ ?_)
  show (Vol.rowMajor (vox _)).val = (S4x160x25600.rowMajor _).val
  rewrite [Shape.rowMajor_val_five, Shape.rowMajor_val_three]
  generalize hq : b.val * 4096000 + ((t.val * 8 + s.val) * 25600 + l.val) = q
  -- Left: voxel q's coordinates (q / 4096000 mod 4, 0, q / 25600 mod 160, q / 160 mod 160, q mod 160).
  -- Right: each coordinate of the block's entry is block index × block extent + the coordinate inside the block.
  show ((((q / 4096000 % 4) * 1 + 0) * 160 + q / 25600 % 160) * 160 + q / 160 % 160) * 160 + q % 160
    = ((win0_0.index t 0 * 4 + 1 * b.val) * 160 + (win0_0.index t 1 * 8 + 1 * s.val)) * 25600
      + (win0_0.index t 2 * 25600 + 1 * l.val)
  rw [hi.1, hi.2.1, hi.2.2]
  have hb := b.isLt
  have hs := s.isLt
  have hl := l.isLt
  omega

/-- The same for the tile of true labels. -/
theorem iblk1_apply (c : Dev nD) (t : Fin cfg0.N) (b : Fin 4) (s : Fin 8) (l : Fin 25600) :
    (iblk m c 1 t : Vec Ideal S4x8x25600 .i32) (ix3 b s l)
      = m ((c.tc : Thread nD τ).loc main_arg1) (vox (b.val * 4096000 + ((t.val * 8 + s.val) * 25600 + l.val))) := by
  -- The window's block index at grid point t is (0, t, 0), decided once over the 20 points.
  have hi := (by decide +kernel : ∀ t : Fin grid0.N,
    win0_1.index t 0 = 0 ∧ win0_1.index t (1 : Fin 3) = t.val ∧ win0_1.index t 2 = 0) t
  have ht : t.val < 20 := lt_of_lt_of_eq t.isLt (show cfg0.N = 20 from N_0)
  unfold iblk
  rw [View.read_apply]
  show V m c main_v1 _ = _
  -- A reshape keeps the row-major number: the two positions are compared as sums of products.
  refine (congrFun (V_v1 m c) _).trans (shapeCast_apply _ _ _ _ ?_)
  show (Vol.rowMajor (vox _)).val = (S4x160x25600.rowMajor _).val
  rewrite [Shape.rowMajor_val_five, Shape.rowMajor_val_three]
  generalize hq : b.val * 4096000 + ((t.val * 8 + s.val) * 25600 + l.val) = q
  -- Left: voxel q's coordinates (q / 4096000 mod 4, 0, q / 25600 mod 160, q / 160 mod 160, q mod 160).
  -- Right: each coordinate of the block's entry is block index × block extent + the coordinate inside the block.
  show ((((q / 4096000 % 4) * 1 + 0) * 160 + q / 25600 % 160) * 160 + q / 160 % 160) * 160 + q % 160
    = ((win0_1.index t 0 * 4 + 1 * b.val) * 160 + (win0_1.index t 1 * 8 + 1 * s.val)) * 25600
      + (win0_1.index t 2 * 25600 + 1 * l.val)
  rw [hi.1, hi.2.1, hi.2.2]
  have hb := b.isLt
  have hs := s.isLt
  have hl := l.isLt
  omega

end Cert.KernelIdeal.KBlock

end
-- ==== Proof.KInduct.lean ====
/-
  The running tables, grid point by grid point.

  The grid has 20 points: core p (0 or 1) runs points 10 p … 10 p + 9, and point n works on tile n of the depth axis
  (slices 8 n … 8 n + 7 of every batch). tileP x n b k is the number of class-k voxels of batch b in tile n of the
  volume x, tileI x y n b k the number of voxels there that are class k in both volumes. After point n the three
  running tables hold, at entry (b, k), the sums of these over the tiles the core has done so far: tiles
  10 (n / 10) … n (outs_eq, by induction on the point: the first point of a core's run resets and adds its tile,
  every other point adds its tile to what the point before left).
-/
import proofs.«425035_j62173946577085_3_alg».proof.Proof.Gen.KernelIdeal.Frame
import proofs.«425035_j62173946577085_3_alg».proof.Proof.KCases
import proofs.«425035_j62173946577085_3_alg».proof.Proof.KBlock
import proofs.«425035_j62173946577085_3_alg».proof.Proof.Spec

set_option maxRecDepth 16384

noncomputable section

open scoped BigOperators

namespace Cert.KernelIdeal.KInduct

open Cert.KernelIdeal Cert.KernelIdeal.Gen Cert.KernelIdeal.KCases Cert.KernelIdeal.KBlock Cert.Hist
open Idealize.ShloMosaic Idealize.ShloMosaic.TcCoe Idealize.SL.Sem Idealize.ShloMosaic.ValueIdx

variable (m : (ℓ : Loc nD τ sig) → Buf (Elt Ideal) ℓ)

/-- The two label volumes core c's program is given. -/
abbrev X0 (c : Dev nD) : Vol.Idx → BitVec 32 := m ((c.tc : Thread nD τ).loc main_arg0)
abbrev X1 (c : Dev nD) : Vol.Idx → BitVec 32 := m ((c.tc : Thread nD τ).loc main_arg1)

/-- The class-k voxels of batch b in tile n of x, counted lane by lane, each lane over the tile's 8 slices. -/
def tileP (x : Vol.Idx → BitVec 32) (n b k : ℕ) : EReal :=
  ∑ l : Fin 25600, ∑ s : Fin 8, isC (x (vox (b * 4096000 + ((n * 8 + s.val) * 25600 + l.val)))) k

/-- The voxels of batch b in tile n that are class k in both x and y. -/
def tileI (x y : Vol.Idx → BitVec 32) (n b k : ℕ) : EReal :=
  ∑ l : Fin 25600, ∑ s : Fin 8, isC (x (vox (b * 4096000 + ((n * 8 + s.val) * 25600 + l.val)))) k
    * isC (y (vox (b * 4096000 + ((n * 8 + s.val) * 25600 + l.val)))) k

/-- What the three output arrays end with: entry (p, b, k) is core p's sum over its ten tiles 10 p … 10 p + 9. -/
def GP (c : Dev nD) : FVec Ideal S2x4x10 .f32 :=
  fun i => ∑ j ∈ Finset.range 10, tileP (X0 m c) ((i 0).val * 10 + j) (i 1).val (i 2).val
def GT (c : Dev nD) : FVec Ideal S2x4x10 .f32 :=
  fun i => ∑ j ∈ Finset.range 10, tileP (X1 m c) ((i 0).val * 10 + j) (i 1).val (i 2).val
def GI (c : Dev nD) : FVec Ideal S2x4x10 .f32 :=
  fun i => ∑ j ∈ Finset.range 10, tileI (X0 m c) (X1 m c) ((i 0).val * 10 + j) (i 1).val (i 2).val

/-- The tiles the body holds at point t, as arrays of their literal shape. -/
abbrev blk0 (c : Dev nD) (t : Fin cfg0.N) : Vec Ideal S4x8x25600 .i32 := iblk m c 0 t
abbrev blk1 (c : Dev nD) (t : Fin cfg0.N) : Vec Ideal S4x8x25600 .i32 := iblk m c 1 t

/-- One point's contribution to the first (x := X0, w := 0) or second (x := X1, w := 1) table: the tile's count. -/
theorem tile0_sum (c : Dev nD) (t : Fin cfg0.N) (b : Fin 4) (k : Fin 10) :
    ∑ l : Fin 25600, ∑ s : Fin 8, isC (blk0 m c t (ix3 b s l)) k.val = tileP (X0 m c) t.val b.val k.val := by
  unfold tileP
  refine Finset.sum_congr rfl fun l _ => Finset.sum_congr rfl fun s _ => ?_
  rw [show blk0 m c t (ix3 b s l) = _ from iblk0_apply m c t b s l]

theorem tile1_sum (c : Dev nD) (t : Fin cfg0.N) (b : Fin 4) (k : Fin 10) :
    ∑ l : Fin 25600, ∑ s : Fin 8, isC (blk1 m c t (ix3 b s l)) k.val = tileP (X1 m c) t.val b.val k.val := by
  unfold tileP
  refine Finset.sum_congr rfl fun l _ => Finset.sum_congr rfl fun s _ => ?_
  rw [show blk1 m c t (ix3 b s l) = _ from iblk1_apply m c t b s l]

theorem tileI_sum (c : Dev nD) (t : Fin cfg0.N) (b : Fin 4) (k : Fin 10) :
    ∑ l : Fin 25600, ∑ s : Fin 8, isC (blk0 m c t (ix3 b s l)) k.val * isC (blk1 m c t (ix3 b s l)) k.val
      = tileI (X0 m c) (X1 m c) t.val b.val k.val := by
  unfold tileI
  refine Finset.sum_congr rfl fun l _ => Finset.sum_congr rfl fun s _ => ?_
  rw [show blk0 m c t (ix3 b s l) = _ from iblk0_apply m c t b s l,
    show blk1 m c t (ix3 b s l) = _ from iblk1_apply m c t b s l]

/-- A first point of a core's run: the tables are reset, then the point's tile is added. -/
theorem first_point (c : Dev nD) (t : Fin cfg0.N) (h0 : t.val % 10 = 0) (b : Fin 4) (k : Fin 10) :
    (outsAt0 m c t.val t.isLt).1 (ix3 (0 : Fin 1) b k) = tileP (X0 m c) t.val b.val k.val
    ∧ (outsAt0 m c t.val t.isLt).2.1 (ix3 (0 : Fin 1) b k) = tileP (X1 m c) t.val b.val k.val
    ∧ (outsAt0 m c t.val t.isLt).2.2 (ix3 (0 : Fin 1) b k) = tileI (X0 m c) (X1 m c) t.val b.val k.val := by
  rw [outsAt0_A m c t h0]
  dsimp only
  rw [outA2_eq, outA3_eq, outA4_eq]
  refine ⟨?_, ?_, ?_⟩
  · refine (newP_apply (blk0 m c t) _ b k).trans ?_
    rw [zeroP_apply, zero_add, tile0_sum]
  · refine (newT_apply (blk1 m c t) _ b k).trans ?_
    rw [zeroT_apply, zero_add, tile1_sum]
  · refine (newI_apply (blk0 m c t) (blk1 m c t) _ b k).trans ?_
    rw [zeroI_apply, zero_add, tileI_sum]

/-- Any other point: the point's tile is added to what the point before left. -/
theorem next_point (c : Dev nD) (t : Fin cfg0.N) (h0 : ¬t.val % 10 = 0) (b : Fin 4) (k : Fin 10) :
    (outsAt0 m c t.val t.isLt).1 (ix3 (0 : Fin 1) b k)
        = (outsAt0 m c (t.val - 1) (Nat.lt_of_le_of_lt (Nat.sub_le _ _) t.isLt)).1 (ix3 (0 : Fin 1) b k)
          + tileP (X0 m c) t.val b.val k.val
    ∧ (outsAt0 m c t.val t.isLt).2.1 (ix3 (0 : Fin 1) b k)
        = (outsAt0 m c (t.val - 1) (Nat.lt_of_le_of_lt (Nat.sub_le _ _) t.isLt)).2.1 (ix3 (0 : Fin 1) b k)
          + tileP (X1 m c) t.val b.val k.val
    ∧ (outsAt0 m c t.val t.isLt).2.2 (ix3 (0 : Fin 1) b k)
        = (outsAt0 m c (t.val - 1) (Nat.lt_of_le_of_lt (Nat.sub_le _ _) t.isLt)).2.2 (ix3 (0 : Fin 1) b k)
          + tileI (X0 m c) (X1 m c) t.val b.val k.val := by
  rw [outsAt0_B m c t h0]
  dsimp only
  rw [outB2_eq, outB3_eq, outB4_eq]
  refine ⟨?_, ?_, ?_⟩
  · refine (newP_apply (blk0 m c t) _ b k).trans ?_
    rw [tile0_sum]
  · refine (newT_apply (blk1 m c t) _ b k).trans ?_
    rw [tile1_sum]
  · refine (newI_apply (blk0 m c t) (blk1 m c t) _ b k).trans ?_
    rw [tileI_sum]

/-- After point n the running tables hold the sums over the tiles 10 (n / 10) … n. -/
theorem outs_eq (c : Dev nD) : ∀ (n : ℕ) (h : n < cfg0.N) (b : Fin 4) (k : Fin 10),
    (outsAt0 m c n h).1 (ix3 (0 : Fin 1) b k) = ∑ j ∈ Finset.range (n % 10 + 1), tileP (X0 m c) (n / 10 * 10 + j) b.val k.val
    ∧ (outsAt0 m c n h).2.1 (ix3 (0 : Fin 1) b k) = ∑ j ∈ Finset.range (n % 10 + 1), tileP (X1 m c) (n / 10 * 10 + j) b.val k.val
    ∧ (outsAt0 m c n h).2.2 (ix3 (0 : Fin 1) b k)
        = ∑ j ∈ Finset.range (n % 10 + 1), tileI (X0 m c) (X1 m c) (n / 10 * 10 + j) b.val k.val := by
  intro n
  induction n with
  | zero =>
    intro h b k
    have e := first_point m c ⟨0, h⟩ rfl b k
    simpa [Finset.sum_range_one] using e
  | succ n ih =>
    intro h b k
    by_cases h0 : (n + 1) % 10 = 0
    · have e := first_point m c ⟨n + 1, h⟩ h0 b k
      have e1 : (n + 1) % 10 + 1 = 1 := by omega
      have e2 : (n + 1) / 10 * 10 + 0 = n + 1 := by omega
      rw [e1, Finset.sum_range_one, Finset.sum_range_one, Finset.sum_range_one, e2]
      exact e
    · have e := next_point m c ⟨n + 1, h⟩ h0 b k
      have ihn := ih (Nat.lt_of_succ_lt h) b k
      have e1 : (n + 1) % 10 + 1 = (n % 10 + 1) + 1 := by omega
      have e2 : (n + 1) / 10 = n / 10 := by omega
      have e3 : n / 10 * 10 + (n % 10 + 1) = n + 1 := by omega
      have step : ∀ f : ℕ → EReal, ∑ j ∈ Finset.range ((n + 1) % 10 + 1), f ((n + 1) / 10 * 10 + j)
          = ∑ j ∈ Finset.range (n % 10 + 1), f (n / 10 * 10 + j) + f (n + 1) := by
        intro f
        rw [e1, Finset.sum_range_succ, e2, e3]
      refine ⟨e.1.trans ?_, e.2.1.trans ?_, e.2.2.trans ?_⟩
      · exact (congrArg (· + tileP (X0 m c) (n + 1) b.val k.val) ihn.1).trans
          (step fun q => tileP (X0 m c) q b.val k.val).symm
      · exact (congrArg (· + tileP (X1 m c) (n + 1) b.val k.val) ihn.2.1).trans
          (step fun q => tileP (X1 m c) q b.val k.val).symm
      · exact (congrArg (· + tileI (X0 m c) (X1 m c) (n + 1) b.val k.val) ihn.2.2).trans
          (step fun q => tileI (X0 m c) (X1 m c) q b.val k.val).symm

end Cert.KernelIdeal.KInduct

end
-- ==== Proof.KFinal.lean ====
import proofs.«425035_j62173946577085_3_alg».proof.Defs
import proofs.«425035_j62173946577085_3_alg».proof.Proof.Gen.KernelIdeal.Frame
import proofs.«425035_j62173946577085_3_alg».proof.Proof.KInduct
import Idealize.ShloMosaic.Lib.ValueIdx
import Idealize.ShloMosaic.Lib.Pipeline.Value

set_option maxRecDepth 16384

noncomputable section

open scoped BigOperators

namespace Cert.KernelIdeal.KFinal

open Cert.KernelIdeal Cert.KernelIdeal.Gen Cert.KernelIdeal.KInduct Cert.Hist
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## Where the output blocks sit

Each output array is [2, 4, 10]; the block of grid point t is the [1, 4, 10] slab number t / 10 along axis 0 (core
t / 10's table), whole along the two other axes. -/

theorem idx_facts2 : ∀ t : Fin cfg0.N, win0_2.index t (0 : Fin 3) = t.val / 10 ∧ win0_2.index t (1 : Fin 3) = 0
    ∧ win0_2.index t (2 : Fin 3) = 0 :=
  (by decide +kernel : ∀ t : Fin grid0.N, _)

theorem idx_facts3 : ∀ t : Fin cfg0.N, win0_3.index t (0 : Fin 3) = t.val / 10 ∧ win0_3.index t (1 : Fin 3) = 0
    ∧ win0_3.index t (2 : Fin 3) = 0 :=
  (by decide +kernel : ∀ t : Fin grid0.N, _)

theorem idx_facts4 : ∀ t : Fin cfg0.N, win0_4.index t (0 : Fin 3) = t.val / 10 ∧ win0_4.index t (1 : Fin 3) = 0
    ∧ win0_4.index t (2 : Fin 3) = 0 :=
  (by decide +kernel : ∀ t : Fin grid0.N, _)

/-- An index of a [1, 4, 10] block is (0, b, k). -/
theorem blockIdx (y : S1x4x10.Idx) : ∃ (b : Fin 4) (k : Fin 10), y = ix3 (0 : Fin 1) b k :=
  ⟨y 1, y 2, (eq_ix3 y).trans (congrArg (fun a : Fin 1 => ix3 a (y 1) (y 2)) (Subsingleton.elim (α := Fin 1) (y 0) 0))⟩

/-! ## What a write-back writes

A block is written back at the points t ≡ 9 (mod 10), the last of a core's ten. The running table after such a point
is the sum over the core's tiles 10 (t / 10) … 10 (t / 10) + 9, and entry (0, b, k) of the block is entry
(t / 10, b, k) of the array: the block of the array of ten-tile sums. -/

theorem flushed2_eq (c : Dev nD) (t : Fin cfg0.N) (hf : (cfg0.win 2).flush t = true) :
    (dats m 0 c).flushed 2 t = ((cfg0.win 2).blk t).view.read (Elt Ideal) (GP m c) := by
  have h9 : t.val % 10 = 9 := (flush0_2 t).mp hf
  obtain ⟨e0, e1, e2⟩ := idx_facts2 t
  show (cfg0.win 2).cut (grid0.coords t) ((dats m 0 c).after 2 t) = _
  rw [after0_2]
  funext (y : S1x4x10.Idx)
  show (outsAt0 m c t.val t.isLt).1 y = GP m c (((cfg0.win 2).blk t).view.emb y)
  obtain ⟨b, k, rfl⟩ := blockIdx y
  refine ((outs_eq m c t.val t.isLt b k).1).trans ?_
  generalize hE : ((cfg0.win 2).blk t).view.emb (ix3 (0 : Fin 1) b k) = E
  have c0 : (E 0).val = t.val / 10 := by
    rw [← hE]; show win0_2.index t (0 : Fin 3) * 1 + 1 * 0 = _; omega
  have c1 : (E 1).val = b.val := by
    rw [← hE]; show win0_2.index t (1 : Fin 3) * 4 + 1 * b.val = _; omega
  have c2 : (E 2).val = k.val := by
    rw [← hE]; show win0_2.index t (2 : Fin 3) * 10 + 1 * k.val = _; omega
  show _ = ∑ j ∈ Finset.range 10, tileP (X0 m c) ((E 0).val * 10 + j) (E 1).val (E 2).val
  rw [c0, c1, c2, h9]

theorem flushed3_eq (c : Dev nD) (t : Fin cfg0.N) (hf : (cfg0.win 3).flush t = true) :
    (dats m 0 c).flushed 3 t = ((cfg0.win 3).blk t).view.read (Elt Ideal) (GT m c) := by
  have h9 : t.val % 10 = 9 := (flush0_3 t).mp hf
  obtain ⟨e0, e1, e2⟩ := idx_facts3 t
  show (cfg0.win 3).cut (grid0.coords t) ((dats m 0 c).after 3 t) = _
  rw [after0_3]
  funext (y : S1x4x10.Idx)
  show (outsAt0 m c t.val t.isLt).2.1 y = GT m c (((cfg0.win 3).blk t).view.emb y)
  obtain ⟨b, k, rfl⟩ := blockIdx y
  refine ((outs_eq m c t.val t.isLt b k).2.1).trans ?_
  generalize hE : ((cfg0.win 3).blk t).view.emb (ix3 (0 : Fin 1) b k) = E
  have c0 : (E 0).val = t.val / 10 := by
    rw [← hE]; show win0_3.index t (0 : Fin 3) * 1 + 1 * 0 = _; omega
  have c1 : (E 1).val = b.val := by
    rw [← hE]; show win0_3.index t (1 : Fin 3) * 4 + 1 * b.val = _; omega
  have c2 : (E 2).val = k.val := by
    rw [← hE]; show win0_3.index t (2 : Fin 3) * 10 + 1 * k.val = _; omega
  show _ = ∑ j ∈ Finset.range 10, tileP (X1 m c) ((E 0).val * 10 + j) (E 1).val (E 2).val
  rw [c0, c1, c2, h9]

theorem flushed4_eq (c : Dev nD) (t : Fin cfg0.N) (hf : (cfg0.win 4).flush t = true) :
    (dats m 0 c).flushed 4 t = ((cfg0.win 4).blk t).view.read (Elt Ideal) (GI m c) := by
  have h9 : t.val % 10 = 9 := (flush0_4 t).mp hf
  obtain ⟨e0, e1, e2⟩ := idx_facts4 t
  show (cfg0.win 4).cut (grid0.coords t) ((dats m 0 c).after 4 t) = _
  rw [after0_4]
  funext (y : S1x4x10.Idx)
  show (outsAt0 m c t.val t.isLt).2.2 y = GI m c (((cfg0.win 4).blk t).view.emb y)
  obtain ⟨b, k, rfl⟩ := blockIdx y
  refine ((outs_eq m c t.val t.isLt b k).2.2).trans ?_
  generalize hE : ((cfg0.win 4).blk t).view.emb (ix3 (0 : Fin 1) b k) = E
  have c0 : (E 0).val = t.val / 10 := by
    rw [← hE]; show win0_4.index t (0 : Fin 3) * 1 + 1 * 0 = _; omega
  have c1 : (E 1).val = b.val := by
    rw [← hE]; show win0_4.index t (1 : Fin 3) * 4 + 1 * b.val = _; omega
  have c2 : (E 2).val = k.val := by
    rw [← hE]; show win0_4.index t (2 : Fin 3) * 10 + 1 * k.val = _; omega
  show _ = ∑ j ∈ Finset.range 10, tileI (X0 m c) (X1 m c) ((E 0).val * 10 + j) (E 1).val (E 2).val
  rw [c0, c1, c2, h9]

/-! ## The arrays after the run

Entry (p, b, k) lies in the block of the point 10 p + 9, which is written back; so the two write-backs cover the
array, and it ends as the array of ten-tile sums. -/

/-- The first output array after the run: core p's block is its running table after its last point. -/
theorem final2 (c : Dev nD) : (dats m 0 c).arrAt 2 cfg0.N = GP m c :=
  (dats m 0 c).arrAt_eq_of_cover 2 (GP m c) (flushed2_eq m c) fun (i : S2x4x10.Idx) => by
    have hN : cfg0.N = 20 := N_0
    have h0 : (i 0).val < 2 := (i 0).isLt
    have h1 : (i 1).val < 4 := (i 1).isLt
    have h2 : (i 2).val < 10 := (i 2).isLt
    have ht : (i 0).val * 10 + 9 < cfg0.N := by omega
    obtain ⟨e0, e1, e2⟩ := idx_facts2 ⟨(i 0).val * 10 + 9, ht⟩
    have e0' : win0_2.index ⟨(i 0).val * 10 + 9, ht⟩ (0 : Fin 3) = (i 0).val := by
      rw [e0]; show ((i 0).val * 10 + 9) / 10 = _; omega
    refine ⟨⟨(i 0).val * 10 + 9, ht⟩, (flush0_2 _).mpr (by show ((i 0).val * 10 + 9) % 10 = 9; omega), ?_⟩
    show i ∈ ((View.whole main_v2_0).slice (win0_2.rect ⟨(i 0).val * 10 + 9, ht⟩)).set
    rw [View.set_slice_whole, Rect.mem_set_unit]
    intro a
    match a with
    | ⟨0, _⟩ => show win0_2.index ⟨(i 0).val * 10 + 9, ht⟩ (0 : Fin 3) * 1 ≤ (i 0).val ∧ (i 0).val < win0_2.index ⟨(i 0).val * 10 + 9, ht⟩ (0 : Fin 3) * 1 + 1
                rw [e0']; omega
    | ⟨1, _⟩ => show win0_2.index ⟨(i 0).val * 10 + 9, ht⟩ (1 : Fin 3) * 4 ≤ (i 1).val ∧ (i 1).val < win0_2.index ⟨(i 0).val * 10 + 9, ht⟩ (1 : Fin 3) * 4 + 4
                rw [e1]; omega
    | ⟨2, _⟩ => show win0_2.index ⟨(i 0).val * 10 + 9, ht⟩ (2 : Fin 3) * 10 ≤ (i 2).val ∧ (i 2).val < win0_2.index ⟨(i 0).val * 10 + 9, ht⟩ (2 : Fin 3) * 10 + 10
                rw [e2]; omega

/-- The second. -/
theorem final3 (c : Dev nD) : (dats m 0 c).arrAt 3 cfg0.N = GT m c :=
  (dats m 0 c).arrAt_eq_of_cover 3 (GT m c) (flushed3_eq m c) fun (i : S2x4x10.Idx) => by
    have hN : cfg0.N = 20 := N_0
    have h0 : (i 0).val < 2 := (i 0).isLt
    have h1 : (i 1).val < 4 := (i 1).isLt
    have h2 : (i 2).val < 10 := (i 2).isLt
    have ht : (i 0).val * 10 + 9 < cfg0.N := by omega
    obtain ⟨e0, e1, e2⟩ := idx_facts3 ⟨(i 0).val * 10 + 9, ht⟩
    have e0' : win0_3.index ⟨(i 0).val * 10 + 9, ht⟩ (0 : Fin 3) = (i 0).val := by
      rw [e0]; show ((i 0).val * 10 + 9) / 10 = _; omega
    refine ⟨⟨(i 0).val * 10 + 9, ht⟩, (flush0_3 _).mpr (by show ((i 0).val * 10 + 9) % 10 = 9; omega), ?_⟩
    show i ∈ ((View.whole main_v2_1).slice (win0_3.rect ⟨(i 0).val * 10 + 9, ht⟩)).set
    rw [View.set_slice_whole, Rect.mem_set_unit]
    intro a
    match a with
    | ⟨0, _⟩ => show win0_3.index ⟨(i 0).val * 10 + 9, ht⟩ (0 : Fin 3) * 1 ≤ (i 0).val ∧ (i 0).val < win0_3.index ⟨(i 0).val * 10 + 9, ht⟩ (0 : Fin 3) * 1 + 1
                rw [e0']; omega
    | ⟨1, _⟩ => show win0_3.index ⟨(i 0).val * 10 + 9, ht⟩ (1 : Fin 3) * 4 ≤ (i 1).val ∧ (i 1).val < win0_3.index ⟨(i 0).val * 10 + 9, ht⟩ (1 : Fin 3) * 4 + 4
                rw [e1]; omega
    | ⟨2, _⟩ => show win0_3.index ⟨(i 0).val * 10 + 9, ht⟩ (2 : Fin 3) * 10 ≤ (i 2).val ∧ (i 2).val < win0_3.index ⟨(i 0).val * 10 + 9, ht⟩ (2 : Fin 3) * 10 + 10
                rw [e2]; omega

/-- The third. -/
theorem final4 (c : Dev nD) : (dats m 0 c).arrAt 4 cfg0.N = GI m c :=
  (dats m 0 c).arrAt_eq_of_cover 4 (GI m c) (flushed4_eq m c) fun (i : S2x4x10.Idx) => by
    have hN : cfg0.N = 20 := N_0
    have h0 : (i 0).val < 2 := (i 0).isLt
    have h1 : (i 1).val < 4 := (i 1).isLt
    have h2 : (i 2).val < 10 := (i 2).isLt
    have ht : (i 0).val * 10 + 9 < cfg0.N := by omega
    obtain ⟨e0, e1, e2⟩ := idx_facts4 ⟨(i 0).val * 10 + 9, ht⟩
    have e0' : win0_4.index ⟨(i 0).val * 10 + 9, ht⟩ (0 : Fin 3) = (i 0).val := by
      rw [e0]; show ((i 0).val * 10 + 9) / 10 = _; omega
    refine ⟨⟨(i 0).val * 10 + 9, ht⟩, (flush0_4 _).mpr (by show ((i 0).val * 10 + 9) % 10 = 9; omega), ?_⟩
    show i ∈ ((View.whole main_v2_2).slice (win0_4.rect ⟨(i 0).val * 10 + 9, ht⟩)).set
    rw [View.set_slice_whole, Rect.mem_set_unit]
    intro a
    match a with
    | ⟨0, _⟩ => show win0_4.index ⟨(i 0).val * 10 + 9, ht⟩ (0 : Fin 3) * 1 ≤ (i 0).val ∧ (i 0).val < win0_4.index ⟨(i 0).val * 10 + 9, ht⟩ (0 : Fin 3) * 1 + 1
                rw [e0']; omega
    | ⟨1, _⟩ => show win0_4.index ⟨(i 0).val * 10 + 9, ht⟩ (1 : Fin 3) * 4 ≤ (i 1).val ∧ (i 1).val < win0_4.index ⟨(i 0).val * 10 + 9, ht⟩ (1 : Fin 3) * 4 + 4
                rw [e1]; omega
    | ⟨2, _⟩ => show win0_4.index ⟨(i 0).val * 10 + 9, ht⟩ (2 : Fin 3) * 10 ≤ (i 2).val ∧ (i 2).val < win0_4.index ⟨(i 0).val * 10 + 9, ht⟩ (2 : Fin 3) * 10 + 10
                rw [e2]; omega

end Cert.KernelIdeal.KFinal

end
-- ==== Proof.KCount.lean ====
/-
  The two cores' tables, added, are the histograms of the whole volumes.

  Core p (0 or 1) ends with, at entry (b, k), the sum over its ten tiles 10 p … 10 p + 9 of the tile's count for
  batch b and class k; a tile is 8 depth slices of 25600 voxels, counted lane by lane. The 2 · 10 tiles are batch b's
  160 slices, so core 0's entry plus core 1's is the count over all of batch b's 4096000 voxels, which is the
  histogram's entry (b, k): a sum over all 4 · 4096000 voxels that keeps those of batch b.
-/
import proofs.«425035_j62173946577085_3_alg».proof.Defs
import proofs.«425035_j62173946577085_3_alg».proof.Proof.KInduct
import proofs.«425035_j62173946577085_3_alg».proof.Proof.KTail
import proofs.«425035_j62173946577085_3_alg».proof.Proof.Count
import proofs.«425035_j62173946577085_3_alg».proof.Proof.Spec
import Idealize.ShloMosaic.Lib.ValueIdx

set_option maxRecDepth 16384

noncomputable section

open scoped BigOperators

namespace Cert.KernelIdeal.KCount

open Cert.KernelIdeal Cert.KernelIdeal.Gen Cert.KernelIdeal.KInduct Cert.KernelIdeal.KTail Cert.Hist
open Idealize.ShloMosaic Idealize.ShloMosaic.TcCoe Idealize.SL.Sem Idealize.ShloMosaic.ValueIdx

variable (m : (ℓ : Loc nD τ sig) → Buf (Elt Ideal) ℓ)

/-- A core's ten tiles of batch b, each summed lane by lane over its 8 slices, for core 0 and for core 1, added:
    the sum over batch b's voxels among all 4 · 4096000 (the 2 · 10 tiles are the batch's 160 slices). -/
theorem two_cores (f : ℕ → EReal) (b : Fin 4) :
    (∑ j ∈ Finset.range 10, ∑ l : Fin 25600, ∑ s : Fin 8,
        f (b.val * 4096000 + ((((0 : Fin 2).val * 10 + j) * 8 + s.val) * 25600 + l.val)))
      + (∑ j ∈ Finset.range 10, ∑ l : Fin 25600, ∑ s : Fin 8,
        f (b.val * 4096000 + ((((1 : Fin 2).val * 10 + j) * 8 + s.val) * 25600 + l.val)))
      = ∑ q : Fin 16384000, if q.val / 4096000 = b.val then f q.val else 0 := by
  rw [← count_eq f b, Fin.sum_univ_two]
  congr 1 <;> exact Finset.sum_range _

/-- The two cores' tables added are the histogram of the whole volume: the 20 tiles are the volume's depth axis. -/
theorem sum2_GP (c : Dev nD) : sum2 (GP m c) = HP (X0 m c) := by
  funext i
  obtain ⟨b, k, rfl⟩ : ∃ (b : Fin 4) (k : Fin 10), i = ix2 b k := ⟨i 0, i 1, eq_ix2 i⟩
  rw [sum2_apply]
  show (∑ j ∈ Finset.range 10, tileP (X0 m c) ((0 : Fin 2).val * 10 + j) b.val k.val)
      + (∑ j ∈ Finset.range 10, tileP (X0 m c) ((1 : Fin 2).val * 10 + j) b.val k.val) = histP (X0 m c) b.val k.val
  unfold tileP histP
  exact two_cores (fun q => isC (X0 m c (vox q)) k.val) b

theorem sum2_GT (c : Dev nD) : sum2 (GT m c) = HP (X1 m c) := by
  funext i
  obtain ⟨b, k, rfl⟩ : ∃ (b : Fin 4) (k : Fin 10), i = ix2 b k := ⟨i 0, i 1, eq_ix2 i⟩
  rw [sum2_apply]
  show (∑ j ∈ Finset.range 10, tileP (X1 m c) ((0 : Fin 2).val * 10 + j) b.val k.val)
      + (∑ j ∈ Finset.range 10, tileP (X1 m c) ((1 : Fin 2).val * 10 + j) b.val k.val) = histP (X1 m c) b.val k.val
  unfold tileP histP
  exact two_cores (fun q => isC (X1 m c (vox q)) k.val) b

theorem sum2_GI (c : Dev nD) : sum2 (GI m c) = HI (X0 m c) (X1 m c) := by
  funext i
  obtain ⟨b, k, rfl⟩ : ∃ (b : Fin 4) (k : Fin 10), i = ix2 b k := ⟨i 0, i 1, eq_ix2 i⟩
  rw [sum2_apply]
  show (∑ j ∈ Finset.range 10, tileI (X0 m c) (X1 m c) ((0 : Fin 2).val * 10 + j) b.val k.val)
      + (∑ j ∈ Finset.range 10, tileI (X0 m c) (X1 m c) ((1 : Fin 2).val * 10 + j) b.val k.val)
      = histI (X0 m c) (X1 m c) b.val k.val
  unfold tileI histI
  exact two_cores (fun q => isC (X0 m c (vox q)) k.val * isC (X1 m c (vox q)) k.val) b

end Cert.KernelIdeal.KCount

end
-- ==== Proof.lean ====
/-
  The certificate of the label-histogram Dice loss: the kernel's program against its jnp reference.

  Both programs take two label volumes y_pred, y_true of shape [4, 1, 160, 160, 160] (class labels in [0, 10): the
  precondition) and compute three [4, 10] tables — per batch b and class c the number of voxels labelled c in
  y_pred, in y_true, and in both — then the same closing arithmetic on the tables (the weighted Dice score).

  • The kernel streams each core's half of the depth axis tile by tile (a tile is 8 depth slices of every batch),
    adds to three running tables the tile's counts (class masks summed over slices, then lanes), and the host adds
    the two cores' tables. Read off the generated frame run: what one point adds (KOps, KCases), the running tables
    by induction on the point (KInduct), the output arrays (KFinal), the host's closing operations (KTail); the 20
    tiles of a batch are its 4096000 voxels (Count, KCount).
  • The reference sorts the flattened voxels by the key label + 10 · batch with a scatter-add of ones (of the match
    bit for the third table). Under the precondition key 10 b + c is met exactly by label c in batch b (RefValue).
  • The closing arithmetic is the same chain of operations in both programs (TailEq): no real-number algebra joins
    the two sides beyond reordering finite sums of 0s and 1s.

  frame: the kernel's two frames are the generated ones; the reference's is its run with the result dropped.
  preserves: fifty instances of "widening after narrowing the same value is the value" (PreLabels).
-/
import proofs.«425035_j62173946577085_3_alg».proof.Defs
import proofs.«425035_j62173946577085_3_alg».proof.Proof.Gen.Kernel
import proofs.«425035_j62173946577085_3_alg».proof.Proof.Gen.Kernel.Frame
import proofs.«425035_j62173946577085_3_alg».proof.Proof.Gen.KernelIdeal
import proofs.«425035_j62173946577085_3_alg».proof.Proof.Gen.KernelIdeal.Frame
import proofs.«425035_j62173946577085_3_alg».proof.Proof.Gen.ReferenceIdeal
import proofs.«425035_j62173946577085_3_alg».proof.Proof.Gen.Pre_any_inputs
import proofs.«425035_j62173946577085_3_alg».proof.Proof.RefValue
import proofs.«425035_j62173946577085_3_alg».proof.Proof.PreLabels
import proofs.«425035_j62173946577085_3_alg».proof.Proof.KTail
import proofs.«425035_j62173946577085_3_alg».proof.Proof.TailEq
import proofs.«425035_j62173946577085_3_alg».proof.Proof.KFinal
import proofs.«425035_j62173946577085_3_alg».proof.Proof.KCount
import Idealize.ShloMosaic.Adequacy
import Idealize.ShloMosaic.Init

set_option maxRecDepth 16384

noncomputable section

namespace Cert.Proof

open Idealize.ShloMosaic Idealize.ShloMosaic.TcCoe Idealize.SL.Sem
open Cert.Hist Cert.KernelIdeal.KInduct

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

section KernelValue
open Cert.KernelIdeal Cert.KernelIdeal.Gen

/-- The kernel's program, run: the result is the closing arithmetic of the three histograms of the argument volumes,
    and the arguments are unchanged. -/
theorem kernel_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v27)
        = Cert.KernelIdeal.KTail.tailK (HP (X0 m c)) (HP (X1 m c)) (HI (X0 m c) (X1 m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v27 (Pipeline.mem_restRefs_of main_v27 (by decide) (by decide))).trans
        ((Cert.KernelIdeal.KTail.tail_result m c _ _ _ (Cert.KernelIdeal.KFinal.final2 m c)
            (Cert.KernelIdeal.KFinal.final3 m c) (Cert.KernelIdeal.KFinal.final4 m c)).trans
          (by rw [Cert.KernelIdeal.KCount.sum2_GP, Cert.KernelIdeal.KCount.sum2_GT, Cert.KernelIdeal.KCount.sum2_GI])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end KernelValue

/-- At the ideal instance, from memories agreeing on the two volumes, both programs end at the same closing
    arithmetic of the same three histograms. -/
theorem algebraic : Cert.algebraic_KernelIdeal_ReferenceIdeal := by
  intro m ρ m' ρ' hpre hagree
  refine ⟨fun c => Cert.KernelIdeal.KTail.tailK (HP (X0 m c)) (HP (X1 m c)) (HI (X0 m c) (X1 m c)), kernel_value m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1⟩ := Cert.Proof.PreLabels.labels_of_pre m hpre c
  rw [Cert.ReferenceIdeal.ReadP.val_main_v49_eq, (hagree c).1, (hagree c).2,
    Cert.ReferenceIdeal.RefValue.result_eq _ _ h0 h1]
  exact (Cert.Proof.TailEq.tail_eq _ _ _).symm

theorem claim : Cert.Claim :=
  ⟨Cert.Kernel.Gen.facts, Cert.KernelIdeal.Gen.facts, Cert.ReferenceIdeal.Gen.facts, Cert.Pre_any_inputs.Gen.facts,
    frame_k, frame_ki, frame_ri, Cert.Proof.PreLabels.preserves, algebraic⟩

end Cert.Proof

end
